-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x256 : Shape := ⟨3, ![256, 256, 256]⟩
abbrev S257 : Shape := ⟨1, ![257]⟩
abbrev S_ : Shape := ⟨0, ![]⟩

class Facts : Prop where
  bcast_S_S257 : S_.BroadcastsInDim S257 (![] : Fin 0 → Fin S257.rank)
  reducesTo_S257_S_d0 : S257.ReducesTo [0] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_arg2 : IVec S257 32) (main_v12 : IVec S_ 1) (main_v15 : IVec S_ 1) : IVec S_ 1 :=
  let main_v16 : IVec S_ 1 := andi main_v12 main_v15
  let main_c_6 : IVec S_ 32 := constantI S_ 32 0#32
  let main_v17 : IVec S257 32 := broadcastInDim S257 ![] bcast_S_S257 main_c_6
  let main_v18 : IVec S257 1 := cmpi .eq main_arg2 main_v17
  let main_c_7 : IVec S_ 32 := constantI S_ 32 1#32
  let main_v19 : IVec S257 32 := broadcastInDim S257 ![] bcast_S_S257 main_c_7
  let main_v20 : IVec S257 1 := cmpi .eq main_arg2 main_v19
  let main_v21 : IVec S257 1 := ori main_v18 main_v20
  let main_c_8 : IVec S_ 1 := constantI S_ 1 1#1
  let main_v22 : IVec S_ 1 := (fun x v => Host.reduce IntOp.andi x v reducesTo_S257_S_d0 h_S_) main_v21 main_c_8
  let main_v23 : IVec S_ 1 := andi main_v16 main_v22
  main_v23

def fn {F : FTy → Type} [FloatOps F] (main_arg0 : IVec S256x256x256 32) (main_arg1 : FVec F S257 .f32) (main_arg2 : IVec S257 32) (main_arg3 : FVec F S256x256x256 .f32) : IVec S_ 1 :=
  let main_v0 : FVec F S257 .f32 := Host.absf main_arg1
  let main_cst : FVec F S_ .f32 := constant S_ .f32 0x7F800000#32
  let main_v1 : FVec F S257 .f32 := broadcastInDim S257 ![] bcast_S_S257 main_cst
  let main_v2 : IVec S257 1 := cmpf .olt main_v0 main_v1
  let main_c : IVec S_ 1 := constantI S_ 1 1#1
  let main_v3 : IVec S_ 1 := (fun x v => Host.reduce IntOp.andi x v reducesTo_S257_S_d0 h_S_) main_v2 main_c
  let main_v4 : FVec F S256x256x256 .f32 := Host.absf main_arg3
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_cst_2 : FVec F S_ .f32 := constant S_ .f32 0x00000000#32
  let main_v9 : FVec F S257 .f32 := broadcastInDim S257 ![] bcast_S_S257 main_cst_2
  let main_v10 : IVec S257 1 := cmpf .oge main_arg1 main_v9
  let main_c_3 : IVec S_ 1 := constantI S_ 1 1#1
  let main_v11 : IVec S_ 1 := (fun x v => Host.reduce IntOp.andi x v reducesTo_S257_S_d0 h_S_) main_v10 main_c_3
  let main_v12 : IVec S_ 1 := andi main_v8 main_v11
  let main_cst_4 : FVec F S_ .f32 := constant S_ .f32 0x40000000#32
  let main_v13 : FVec F S257 .f32 := broadcastInDim S257 ![] bcast_S_S257 main_cst_4
  let main_v14 : IVec S257 1 := cmpf .ole main_arg1 main_v13
  let main_c_5 : IVec S_ 1 := constantI S_ 1 1#1
  let main_v15 : IVec S_ 1 := (fun x v => Host.reduce IntOp.andi x v reducesTo_S257_S_d0 h_S_) main_v14 main_c_5
  fn_part1 (F := F) main_arg2 main_v12 main_v15
-- ==== Kernel.lean ====
abbrev S256x256x256 : Shape := ⟨3, ![256, 256, 256]⟩
abbrev S257 : Shape := ⟨1, ![257]⟩
abbrev S_ : Shape := ⟨0, ![]⟩
abbrev S384 : Shape := ⟨1, ![384]⟩
abbrev S3x128 : Shape := ⟨2, ![3, 128]⟩
abbrev S3x256x256x256 : Shape := ⟨4, ![3, 256, 256, 256]⟩
abbrev S8x256x256 : Shape := ⟨3, ![8, 256, 256]⟩
abbrev S3x8x256x256 : Shape := ⟨4, ![3, 8, 256, 256]⟩
abbrev S8x256x2x128 : Shape := ⟨4, ![8, 256, 2, 128]⟩
abbrev S1x128 : Shape := ⟨2, ![1, 128]⟩
abbrev S128 : Shape := ⟨1, ![128]⟩
abbrev S1x1x1x128 : Shape := ⟨4, ![1, 1, 1, 128]⟩
abbrev S8x256x2x128x1 : Shape := ⟨5, ![8, 256, 2, 128, 1]⟩
abbrev S1x8x256x256 : Shape := ⟨4, ![1, 8, 256, 256]⟩

abbrev nBuf : Space → Nat
  | .hbm => 15
  | .vmem => 9
  | .smem => 0
  | _ => 0

abbrev bufTy : (tb : Table) → Fin (tcTables nBuf tb) → BufTy
  | .hbm, ⟨0, _⟩ => ⟨S256x256x256, .i32⟩
  | .hbm, ⟨1, _⟩ => ⟨S257, .f32⟩
  | .hbm, ⟨2, _⟩ => ⟨S257, .i32⟩
  | .hbm, ⟨3, _⟩ => ⟨S256x256x256, .f32⟩
  | .hbm, ⟨4, _⟩ => ⟨S257, .f32⟩
  | .hbm, ⟨5, _⟩ => ⟨S_, .f32⟩
  | .hbm, ⟨6, _⟩ => ⟨S257, .f32⟩
  | .hbm, ⟨7, _⟩ => ⟨S257, .f32⟩
  | .hbm, ⟨8, _⟩ => ⟨S257, .f32⟩
  | .hbm, ⟨9, _⟩ => ⟨S_, .i32⟩
  | .hbm, ⟨10, _⟩ => ⟨S_, .f32⟩
  | .hbm, ⟨11, _⟩ => ⟨S384, .f32⟩
  | .hbm, ⟨12, _⟩ => ⟨S3x128, .f32⟩
  | .hbm, ⟨13, _⟩ => ⟨S256x256x256, .f32⟩
  | .hbm, ⟨14, _⟩ => ⟨S3x256x256x256, .f32⟩
  | .local _ .vmem, ⟨0, _⟩ => ⟨S3x128, .f32⟩
  | .local _ .vmem, ⟨1, _⟩ => ⟨S8x256x256, .i32⟩
  | .local _ .vmem, ⟨2, _⟩ => ⟨S8x256x256, .i32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S3x8x256x256, .f32⟩
  | .local _ .vmem, ⟨8, _⟩ => ⟨S3x8x256x256, .f32⟩
  | _, _ => ⟨S256x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S257 : S_.BroadcastsInDim S257 (![] : Fin 0 → Fin S257.rank)
  pads_S257_S384_01270 : S257.Pads (![0] : Fin 1 → Nat) ![127] ![0] S384
  h_S_ : 0 < S_.numel
  shapeCasts_S384_S3x128 : S384.ShapeCasts S3x128
  inb_S8x256x256_S8x256x256_0_0_0 : ∀ a, (![0, 0, 0] : Fin 3 → Nat) a + S8x256x256.size a ≤ S8x256x256.size a
  h_S8x256x256 : 0 < S8x256x256.numel
  shapeCasts_S8x256x256_S8x256x2x128 : S8x256x256.ShapeCasts S8x256x2x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S3x128_o0_0_S1x128 : S3x128.Slices ![0, 0] S1x128
  shapeCasts_S1x128_S128 : S1x128.ShapeCasts S128
  shapeCasts_S128_S1x1x1x128 : S128.ShapeCasts S1x1x1x128
  shapeCasts_S1x1x1x128_S1x1x1x128 : S1x1x1x128.ShapeCasts S1x1x1x128
  broadcasts_S1x1x1x128_S8x256x2x128 : S1x1x1x128.Broadcasts S8x256x2x128
  slices_S3x128_o1_0_S1x128 : S3x128.Slices ![1, 0] S1x128
  slices_S3x128_o2_0_S1x128 : S3x128.Slices ![2, 0] S1x128
  shapeCasts_S8x256x2x128_S8x256x2x128x1 : S8x256x2x128.ShapeCasts S8x256x2x128x1
  shapeCasts_S8x256x2x128x1_S8x256x2x128 : S8x256x2x128x1.ShapeCasts S8x256x2x128
  shapeCasts_S8x256x2x128_S8x256x256 : S8x256x2x128.ShapeCasts S8x256x256
  natLt_1_32 : 1 < 32
  inb_S3x8x256x256_S1x8x256x256_0_0_0_0 : ∀ a, (![0, 0, 0, 0] : Fin 4 → Nat) a + S1x8x256x256.size a ≤ S3x8x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  inb_S3x8x256x256_S1x8x256x256_1_0_0_0 : ∀ a, (![1, 0, 0, 0] : Fin 4 → Nat) a + S1x8x256x256.size a ≤ S3x8x256x256.size a
  inb_S3x8x256x256_S1x8x256x256_2_0_0_0 : ∀ a, (![2, 0, 0, 0] : Fin 4 → Nat) a + S1x8x256x256.size a ≤ S3x8x256x256.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x128.size a ≤ S3x128.size a
  hwx0_0 : ∀ i : grid0.Coords, EltTy.bits .f32 = 32 ∨ (Rect.block (s := S3x128) S3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S256x256x256.size a
  hwx0_1 : ∀ i : grid0.Coords, EltTy.bits .i32 = 32 ∨ (Rect.block (s := S256x256x256) S8x256x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S256x256x256.size a
  hwx0_2 : ∀ i : grid0.Coords, EltTy.bits .f32 = 32 ∨ (Rect.block (s := S256x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S256x256x256.size a
  hwx0_3 : ∀ i : grid0.Coords, EltTy.bits .f32 = 32 ∨ (Rect.block (s := S256x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x8x256x256.size a ≤ S3x256x256x256.size a
  hwx0_4 : ∀ i : grid0.Coords, EltTy.bits .f32 = 32 ∨ (Rect.block (s := S3x256x256x256) S3x8x256x256.size (cc0_transform_4 i) (hinb0_4 i)).WholeWords (EltTy.packing .f32)

variable [Facts₀]

abbrev win0_0 : Pipeline.Window sig grid0 :=
  Pipeline.Window.ofSpec (Memref.whole main_v5) S3x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S8x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S3x8x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256x256 : Shape := ⟨3, ![256, 256, 256]⟩
abbrev S257 : Shape := ⟨1, ![257]⟩
abbrev S_ : Shape := ⟨0, ![]⟩
abbrev S256x256x256x1 : Shape := ⟨4, ![256, 256, 256, 1]⟩
abbrev S1x256x256x256 : Shape := ⟨4, ![1, 256, 256, 256]⟩
abbrev S3x256x256x256 : Shape := ⟨4, ![3, 256, 256, 256]⟩

abbrev nBuf : Space → Nat
  | .hbm => 57
  | .vmem => 0
  | .smem => 0
  | _ => 0

abbrev bufTy : (tb : Table) → Fin (tcTables nBuf tb) → BufTy
  | .hbm, ⟨0, _⟩ => ⟨S256x256x256, .i32⟩
  | .hbm, ⟨1, _⟩ => ⟨S257, .f32⟩
  | .hbm, ⟨2, _⟩ => ⟨S257, .i32⟩
  | .hbm, ⟨3, _⟩ => ⟨S256x256x256, .f32⟩
  | .hbm, ⟨4, _⟩ => ⟨S_, .i32⟩
  | .hbm, ⟨5, _⟩ => ⟨S256x256x256, .i32⟩
  | .hbm, ⟨6, _⟩ => ⟨S256x256x256, .i1⟩
  | .hbm, ⟨7, _⟩ => ⟨S_, .i32⟩
  | .hbm, ⟨8, _⟩ => ⟨S256x256x256, .i32⟩
  | .hbm, ⟨9, _⟩ => ⟨S256x256x256, .i1⟩
  | .hbm, ⟨10, _⟩ => ⟨S_, .i32⟩
  | .hbm, ⟨11, _⟩ => ⟨S256x256x256, .i32⟩
  | .hbm, ⟨12, _⟩ => ⟨S256x256x256, .i32⟩
  | .hbm, ⟨13, _⟩ => ⟨S256x256x256, .i32⟩
  | .hbm, ⟨14, _⟩ => ⟨S256x256x256x1, .i32⟩
  | .hbm, ⟨15, _⟩ => ⟨S256x256x256, .f32⟩
  | .hbm, ⟨16, _⟩ => ⟨S_, .f32⟩
  | .hbm, ⟨17, _⟩ => ⟨S_, .f32⟩
  | .hbm, ⟨18, _⟩ => ⟨S256x256x256, .f32⟩
  | .hbm, ⟨19, _⟩ => ⟨S256x256x256, .f32⟩
  | .hbm, ⟨20, _⟩ => ⟨S_, .i32⟩
  | .hbm, ⟨21, _⟩ => ⟨S256x256x256, .i32⟩
  | .hbm, ⟨22, _⟩ => ⟨S256x256x256, .i1⟩
  | .hbm, ⟨23, _⟩ => ⟨S_, .i32⟩
  | .hbm, ⟨24, _⟩ => ⟨S256x256x256, .i32⟩
  | .hbm, ⟨25, _⟩ => ⟨S256x256x256, .i32⟩
  | .hbm, ⟨26, _⟩ => ⟨S256x256x256, .i32⟩
  | .hbm, ⟨27, _⟩ => ⟨S256x256x256x1, .i32⟩
  | .hbm, ⟨28, _⟩ => ⟨S256x256x256, .i32⟩
  | .hbm, ⟨29, _⟩ => ⟨S_, .f32⟩
  | .hbm, ⟨30, _⟩ => ⟨S_, .f32⟩
  | .hbm, ⟨31, _⟩ => ⟨S256x256x256, .f32⟩
  | .hbm, ⟨32, _⟩ => ⟨S256x256x256, .f32⟩
  | .hbm, ⟨33, _⟩ => ⟨S256x256x256, .f32⟩
  | .hbm, ⟨34, _⟩ => ⟨S_, .i32⟩
  | .hbm, ⟨35, _⟩ => ⟨S256x256x256, .i32⟩
  | .hbm, ⟨36, _⟩ => ⟨S256x256x256, .i1⟩
  | .hbm, ⟨37, _⟩ => ⟨S256x256x256, .i1⟩
  | .hbm, ⟨38, _⟩ => ⟨S_, .f32⟩
  | .hbm, ⟨39, _⟩ => ⟨S_, .f32⟩
  | .hbm, ⟨40, _⟩ => ⟨S256x256x256, .f32⟩
  | .hbm, ⟨41, _⟩ => ⟨S256x256x256, .f32⟩
  | .hbm, ⟨42, _⟩ => ⟨S256x256x256, .f32⟩
  | .hbm, ⟨43, _⟩ => ⟨S_, .i32⟩
  | .hbm, ⟨44, _⟩ => ⟨S256x256x256, .i32⟩
  | .hbm, ⟨45, _⟩ => ⟨S256x256x256, .i1⟩
  | .hbm, ⟨46, _⟩ => ⟨S256x256x256, .i1⟩
  | .hbm, ⟨47, _⟩ => ⟨S_, .f32⟩
  | .hbm, ⟨48, _⟩ => ⟨S_, .f32⟩
  | .hbm, ⟨49, _⟩ => ⟨S256x256x256, .f32⟩
  | .hbm, ⟨50, _⟩ => ⟨S256x256x256, .f32⟩
  | .hbm, ⟨51, _⟩ => ⟨S256x256x256, .f32⟩
  | .hbm, ⟨52, _⟩ => ⟨S1x256x256x256, .f32⟩
  | .hbm, ⟨53, _⟩ => ⟨S1x256x256x256, .f32⟩
  | .hbm, ⟨54, _⟩ => ⟨S1x256x256x256, .f32⟩
  | .hbm, ⟨55, _⟩ => ⟨S3x256x256x256, .f32⟩
  | .hbm, ⟨56, _⟩ => ⟨S256x256x256, .f32⟩
  | _, _ => ⟨S256x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_cst_8 : Ref sig .tc := ⟨.hbm, 39, rfl⟩
abbrev main_call2_v0 : Ref sig .tc := ⟨.hbm, 40, rfl⟩
abbrev main_call2_v1 : Ref sig .tc := ⟨.hbm, 41, rfl⟩
abbrev main_v21 : Ref sig .tc := ⟨.hbm, 42, rfl⟩
abbrev main_c_9 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_10 : Ref sig .tc := ⟨.hbm, 47, rfl⟩
abbrev main_cst_11 : Ref sig .tc := ⟨.hbm, 48, rfl⟩
abbrev main_call3_v0 : Ref sig .tc := ⟨.hbm, 49, rfl⟩
abbrev main_call3_v1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]

class Facts₀ : Prop where
  bcast_S_S256x256x256 : S_.BroadcastsInDim S256x256x256 (![] : Fin 0 → Fin S256x256x256.rank)
  bcast_S256x256x256_S256x256x256x1_0_1_2 : S256x256x256.BroadcastsInDim S256x256x256x1 (![0, 1, 2] : Fin 3 → Fin S256x256x256x1.rank)
  bcast_S256x256x256_S1x256x256x256_1_2_3 : S256x256x256.BroadcastsInDim S1x256x256x256 (![1, 2, 3] : Fin 3 → Fin S1x256x256x256.rank)
  concatenates_S1x256x256x256_S1x256x256x256_S1x256x256x256_S3x256x256x256_d0 : Shape.Concatenates [S1x256x256x256, S1x256x256x256, S1x256x256x256] S3x256x256x256 0
  gather_S257_S256x256x256x1_S256x256x256_n_0_n_n_0_3_1_wf : GatherDims.WF S257 S256x256x256x1 S256x256x256 [] [0] [] [0] [] 3 ![1]

variable [Facts₀]

def gather_S257_S256x256x256x1_S256x256x256_n_0_n_n_0_3_1 : GatherDims S257 S256x256x256x1 S256x256x256 where
  offsetDims := []
  collapsedSliceDims := [0]
  operandBatchingDims := []
  startIndicesBatchingDims := []
  startIndexMap := [0]
  indexVectorDim := 3
  sliceSizes := ![1]
  wf := gather_S257_S256x256x256x1_S256x256x256_n_0_n_n_0_3_1_wf

class Facts : Prop extends Facts₀ where

variable [Facts]
-- ==== Proof.Literals.lean ====
/- The float literals the two programs spell, as the extended reals their words denote: 0, 1, 2 and 4.
   They are evaluated here once; every other module reads them from here. -/
import Idealize.ShloMosaic.PureOps.Ideal
import Idealize.ShloMosaic.PureOps.Ideal.Laws

noncomputable section

namespace Cert.Literals

open Idealize.ShloMosaic

/-- The word of `1.0` denotes the real 1. -/
theorem one_eq : Ideal.ofBits .f32 0x3F800000#32 = 1 := by
  simp [Ideal.ofBits, Ideal.ieee, -EReal.coe_mul]; norm_num

/-- The word of `2.0` denotes the real 2. -/
theorem two_eq : Ideal.ofBits .f32 0x40000000#32 = ((2 : ℝ) : EReal) := by
  simp [Ideal.ofBits, Ideal.ieee, -EReal.coe_mul]; norm_num

/-- The word of `4.0` denotes the real 4. -/
theorem four_eq : Ideal.ofBits .f32 0x40800000#32 = ((4 : ℝ) : EReal) := by
  simp [Ideal.ofBits, Ideal.ieee, -EReal.coe_mul]; norm_num

/-- The zero word denotes 0. -/
theorem zero_eq : Ideal.ofBits .f32 0x00000000#32 = 0 := Ideal.ofBits_zero_f32

end Cert.Literals

end
-- ==== Proof.PreRead.lean ====
/- The stated domain, read off the printed precondition: every class bit is 0 or 1 and every intensity lies in [0, 2]. -/
import proofs.«429853_j74156905333425_3_alg».proof.Pre_finite_inputs
import proofs.«429853_j74156905333425_3_alg».proof.Proof.Literals
import Idealize.ShloMosaic.PureOps.Ideal
import Idealize.ShloMosaic.PureOps.Ideal.Laws
import Idealize.ShloMosaic.Lib.ReduceAll
import Idealize.ShloMosaic.Lib.ValueIdx
import Idealize.ShloMosaic.Lib.WordArith

noncomputable section

namespace Cert.PreRead

open Idealize.ShloMosaic Idealize.ShloMosaic.ValueIdx Cert.Pre_finite_inputs

variable [Cert.Pre_finite_inputs.Facts]

/-- The scalar shape has exactly one index. -/
instance : Subsingleton S_.Idx := ⟨fun a b => funext fun d => d.elim0⟩

/-- Where the precondition holds, every per-id class bit is 0 or 1 and every per-id intensity lies in [0, 2]. -/
theorem domain_of_pre (lab : IVec S256x256x256 32) (inten : FVec Ideal S257 .f32) (bits : IVec S257 32)
    (par : FVec Ideal S256x256x256 .f32)
    (h : Cert.Pre_finite_inputs.fn (F := Ideal) lab inten bits par = fun _ => 1#1) (k : S257.Idx) :
    (bits k = 0#32 ∨ bits k = 1#32) ∧ (0 : EReal) ≤ inten k ∧ inten k ≤ ((2 : ℝ) : EReal) := by
  -- The precondition's one value, at the scalar's index, is a conjunction of five "for all" reductions.
  have h0 := congrFun h ValueIdx.ix0
  dsimp only [Cert.Pre_finite_inputs.fn, Cert.Pre_finite_inputs.fn_part1] at h0
  obtain ⟨h1, hbits⟩ := IntOp.andi_eq_one.1 h0
  obtain ⟨h2, hle⟩ := IntOp.andi_eq_one.1 h1
  obtain ⟨-, hge⟩ := IntOp.andi_eq_one.1 h2
  -- A reduction by "and" that came out 1 saw a 1 at every index, in particular at k.
  have eb := Host.reduce_andi_all _ _ _ _ _ hbits k
  have el := Host.reduce_andi_all _ _ _ _ _ hle k
  have eg := Host.reduce_andi_all _ _ _ _ _ hge k
  -- At the extended reals a comparison is the order's own, against the reals 2 and 0 the two splat words denote.
  have el' : Ideal.cmp .ole (inten k) (Ideal.ofBits .f32 0x40000000#32) = 1#1 := el
  have eg' : Ideal.cmp .oge (inten k) (Ideal.ofBits .f32 0x00000000#32) = 1#1 := eg
  rw [Cert.Literals.two_eq] at el'
  rw [Cert.Literals.zero_eq] at eg'
  refine ⟨?_, ?_, ?_⟩
  · rcases IntOp.ori_eq_one.1 eb with e | e
    · exact Or.inl (IntOp.cmpi_eq.1 e)
    · exact Or.inr (IntOp.cmpi_eq.1 e)
  · exact of_decide_eq_true ((WordArith.ofBool_eq_one_iff _).1 eg')
  · exact of_decide_eq_true ((WordArith.ofBool_eq_one_iff _).1 el')

end Cert.PreRead

end
-- ==== Proof.Spec.lean ====
/- What both programs compute, voxel by voxel.

   A label volume `lab` (256³ signed words), a per-id intensity table `inten` and a per-id class bit `bits`
   (257 entries each), and a base field `par` (256³). A voxel is a VESSEL voxel when its label is positive.
   A label selects the id `idOf L`: the label read signed and clamped into [0, 256].

     volume:  par · (inten[id] if vessel else 1)
     one-hot: channel 0 = 1 off the vessels, channel 1 = 1 on vessels of class 0, channel 2 = 1 on vessels of class 1.

   The kernel does not keep two tables. It packs both into one, P[id] = inten[id] + 4 · bits[id], looks P up, and
   unpacks: "class 1" is the test P ≥ 4, and the intensity is P − 4 when the test passes and P when it fails. When the class bit is 0 or 1 and the
   intensity lies in [0, 2] the unpacking is exact: with bit 0, P = inten < 4; with bit 1, P = inten + 4 ≥ 4 and
   (inten + 4) − 4 = inten, the intensity being a real number. That is `volK_packed` and `hotK_packed` below. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The label volume's and the base field's shape. -/
abbrev SVol : Shape := ⟨3, ![256, 256, 256]⟩
/-- The two per-id tables' shape. -/
abbrev STab : Shape := ⟨1, ![257]⟩
/-- The one-hot result's shape: channel, then the voxel. -/
abbrev SHot : Shape := ⟨4, ![3, 256, 256, 256]⟩
/-- The packed table as the kernel sees it: 384 = 3 · 128 entries in three rows of 128 lanes. -/
abbrev SRows : Shape := ⟨2, ![3, 128]⟩

/-- The number of the id a label selects: the label read signed, clamped into [0, 256]. -/
def idNat (L : BitVec 32) : Nat := min L.toInt.toNat 256

theorem idNat_le (L : BitVec 32) : idNat L ≤ 256 := Nat.min_le_right _ _

/-- The id a label selects, as an index of the per-id tables. -/
def idOf (L : BitVec 32) : STab.Idx := ix1 ⟨idNat L, Nat.lt_succ_of_le (idNat_le L)⟩

/-- Where the packed table keeps that id: row `id / 128`, lane `id % 128`. -/
def slotOf (L : BitVec 32) : SRows.Idx :=
  ix2 ⟨idNat L / 128, by have := idNat_le L; omega⟩ ⟨idNat L % 128, Nat.mod_lt _ (by decide)⟩

/-- The vessel test: the label is positive, read signed. -/
def vessel (L : BitVec 32) : BitVec 1 := IntOp.cmpi .sgt L 0#32

/-! ## The reference's form -/

/-- One voxel of the volume: the base field times the looked-up intensity on a vessel, times 1 elsewhere. -/
def volAt (L : BitVec 32) (x p : EReal) : EReal := p * Scalar.select (vessel L) x 1

/-- One voxel of one channel of the one-hot map, from the label and the looked-up class bit. -/
def hotAt (ch : Fin 3) (L b : BitVec 32) : EReal :=
  match ch with
  | 0 => Scalar.select (vessel L) 0 1
  | 1 => Scalar.select (IntOp.andi (vessel L) (IntOp.cmpi .eq b 0#32)) 1 0
  | 2 => Scalar.select (IntOp.andi (vessel L) (IntOp.cmpi .eq b 1#32)) 1 0

/-- The voxel a one-hot index belongs to. -/
def voxelOf (i : SHot.Idx) : SVol.Idx := ix3 (n0 := 256) (n1 := 256) (n2 := 256) (i 1) (i 2) (i 3)

/-- The volume, as one function of the argument arrays. -/
def Gvol (lab : SVol.Idx → BitVec 32) (inten : STab.Idx → EReal) (par : SVol.Idx → EReal) : SVol.Idx → EReal :=
  fun i => volAt (lab i) (inten (idOf (lab i))) (par i)

/-- The one-hot map, as one function of the argument arrays. -/
def Ghot (lab : SVol.Idx → BitVec 32) (bits : STab.Idx → BitVec 32) : SHot.Idx → EReal :=
  fun i => hotAt (i 0) (lab (voxelOf i)) (bits (idOf (lab (voxelOf i))))

/-! ## The kernel's form -/

/-- An id's packed entry: its intensity plus four times its class bit. -/
def packedOf (x : EReal) (b : BitVec 32) : EReal := x + ((4 : ℝ) : EReal) * ((b.toInt : ℝ) : EReal)

/-- The "class 1" test on a packed entry. -/
def bright (P : EReal) : BitVec 1 := Ideal.cmp .oge P ((4 : ℝ) : EReal)

/-- One voxel of the volume from the packed entry `P`: unpack the intensity, then as the reference. -/
def volK (L : BitVec 32) (P p : EReal) : EReal :=
  p * Scalar.select (vessel L) (Scalar.select (bright P) (P - ((4 : ℝ) : EReal)) P) 1

/-- The vessel test as a number, 0 or 1. -/
def vesselF (L : BitVec 32) : EReal := ((((vessel L).setWidth 32).toInt : ℝ) : EReal)

/-- One voxel of the "class 0 vessel" channel from the packed entry. -/
def darkK (L : BitVec 32) (P : EReal) : EReal :=
  Scalar.select (IntOp.andi (vessel L) (IntOp.xori (bright P) 1#1)) 1 0

/-- One voxel of one channel of the one-hot map from the packed entry: the background channel is
    1 − vessel, the class-1 channel is vessel − (class-0 channel). -/
def hotK (ch : Fin 3) (L : BitVec 32) (P : EReal) : EReal :=
  match ch with
  | 0 => 1 - vesselF L
  | 1 => darkK L P
  | 2 => vesselF L - darkK L P

/-! ## Unpacking is exact on the stated domain -/

/-- The vessel test is one of the two one-bit words. -/
theorem vessel_cases (L : BitVec 32) : vessel L = 0#1 ∨ vessel L = 1#1 := by
  generalize vessel L = v
  revert v; decide

theorem vesselF_zero {L : BitVec 32} (h : vessel L = 0#1) : vesselF L = 0 := by
  simp [vesselF, h]

theorem vesselF_one {L : BitVec 32} (h : vessel L = 1#1) : vesselF L = 1 := by
  simp [vesselF, h]

/-- With class bit 0 and an intensity of at most 2 the packed entry is the intensity and fails the test. -/
theorem packed_bit0 (x : ℝ) (h2 : x ≤ 2) :
    packedOf (x : EReal) 0#32 = (x : EReal) ∧ bright (packedOf (x : EReal) 0#32) = 0#1 := by
  have hP : packedOf (x : EReal) 0#32 = (x : EReal) := by
    simp [packedOf]
  refine ⟨hP, ?_⟩
  rw [hP]
  have : ¬ (((4 : ℝ) : EReal) ≤ (x : EReal)) := by
    rw [EReal.coe_le_coe_iff]; linarith
  simp [bright, Ideal.cmp, this]

/-- With class bit 1 and a non-negative intensity the packed entry is the intensity plus 4, passes the test, and
    gives the intensity back when 4 is taken off. -/
theorem packed_bit1 (x : ℝ) (h0 : 0 ≤ x) :
    bright (packedOf (x : EReal) 1#32) = 1#1 ∧ packedOf (x : EReal) 1#32 - ((4 : ℝ) : EReal) = (x : EReal) := by
  have hP : packedOf (x : EReal) 1#32 = ((x + 4 : ℝ) : EReal) := by
    simp [packedOf, EReal.coe_add]
  rw [hP]
  refine ⟨?_, ?_⟩
  · have : ((4 : ℝ) : EReal) ≤ ((x + 4 : ℝ) : EReal) := by
      rw [EReal.coe_le_coe_iff]; linarith
    show BitVec.ofBool (decide (((4 : ℝ) : EReal) ≤ ((x + 4 : ℝ) : EReal))) = 1#1
    rw [decide_eq_true this]; rfl
  · rw [← EReal.coe_sub]; congr 1; ring

/-- On the extended reals 1 − 1 is 0 (the difference of two real numbers). -/
theorem one_sub_one : (1 : EReal) - 1 = 0 := by
  rw [← EReal.coe_one, ← EReal.coe_sub, sub_self, EReal.coe_zero]

/-- THE VOLUME: unpacking the packed entry gives the reference's voxel. -/
theorem volK_packed (L b : BitVec 32) (x p : EReal) (hb : b = 0#32 ∨ b = 1#32) (h0 : 0 ≤ x) (h2 : x ≤ ((2 : ℝ) : EReal)) :
    volK L (packedOf x b) p = volAt L x p := by
  have hbot : x ≠ ⊥ := fun h => by rw [h] at h0; exact absurd h0 (by simp)
  have htop : x ≠ ⊤ := fun h => by rw [h] at h2; exact absurd h2 (by simp)
  lift x to ℝ using ⟨htop, hbot⟩
  have h0' : 0 ≤ x := by exact_mod_cast h0
  have h2' : x ≤ 2 := by exact_mod_cast h2
  unfold volK volAt
  rcases hb with rfl | rfl
  · obtain ⟨hP, hB⟩ := packed_bit0 x h2'
    rw [hB, hP]; rfl
  · obtain ⟨hB, hS⟩ := packed_bit1 x h0'
    rw [hB, hS]; rfl

/-- THE ONE-HOT MAP: the kernel's three channels from the packed entry are the reference's from the class bit. -/
theorem hotK_packed (ch : Fin 3) (L b : BitVec 32) (x : EReal) (hb : b = 0#32 ∨ b = 1#32) (h0 : 0 ≤ x)
    (h2 : x ≤ ((2 : ℝ) : EReal)) :
    hotK ch L (packedOf x b) = hotAt ch L b := by
  have hbot : x ≠ ⊥ := fun h => by rw [h] at h0; exact absurd h0 (by simp)
  have htop : x ≠ ⊤ := fun h => by rw [h] at h2; exact absurd h2 (by simp)
  lift x to ℝ using ⟨htop, hbot⟩
  have h0' : 0 ≤ x := by exact_mod_cast h0
  have h2' : x ≤ 2 := by exact_mod_cast h2
  have hB : bright (packedOf (x : EReal) b) = (if b = 1#32 then 1#1 else 0#1) := by
    rcases hb with rfl | rfl
    · simpa using (packed_bit0 x h2').2
    · simpa using (packed_bit1 x h0').1
  rcases vessel_cases L with hv | hv
  · have hF := vesselF_zero hv
    match ch with
    | 0 => simp [hotK, hotAt, hF, hv, Scalar.select, one_sub_one]
    | 1 => simp [hotK, hotAt, darkK, hv, Scalar.select, IntOp.andi]
    | 2 => simp [hotK, hotAt, darkK, hF, hv, Scalar.select, IntOp.andi]
  · have hF := vesselF_one hv
    rcases hb with rfl | rfl
    · match ch with
      | 0 => simp [hotK, hotAt, hF, hv, Scalar.select, one_sub_one]
      | 1 => simp [hotK, hotAt, darkK, hB, hv, Scalar.select, IntOp.andi, IntOp.xori, IntOp.cmpi]
      | 2 => simp [hotK, hotAt, darkK, hF, hB, hv, Scalar.select, IntOp.andi, IntOp.xori, IntOp.cmpi, one_sub_one]
    · match ch with
      | 0 => simp [hotK, hotAt, hF, hv, Scalar.select, one_sub_one]
      | 1 => simp [hotK, hotAt, darkK, hB, hv, Scalar.select, IntOp.andi, IntOp.xori, IntOp.cmpi]
      | 2 => simp [hotK, hotAt, darkK, hF, hB, hv, Scalar.select, IntOp.andi, IntOp.xori, IntOp.cmpi, one_sub_one]

end Cert.Spec

end
-- ==== Proof.RefValue.lean ====
/- The reference's two results, read index by index, are the specification's two functions of the arguments. -/
import proofs.«429853_j74156905333425_3_alg».proof.Proof.Gen.ReferenceIdeal.Read
import proofs.«429853_j74156905333425_3_alg».proof.Proof.Literals
import proofs.«429853_j74156905333425_3_alg».proof.Proof.Spec
import Idealize.ShloMosaic.Lib.ValueIdx
import Idealize.ShloMosaic.Lib.Pipeline.Value

noncomputable section

namespace Cert.RefValue

open Idealize.ShloMosaic Idealize.ShloMosaic.ValueIdx Cert.ReferenceIdeal Cert.ReferenceIdeal.Gen

/-! ## A gather of a flat table at a rank-4 array of start indices, read at an index -/

section Take3
variable {α : Type}

/-- The dimension numbers of a table lookup `x[idx]` for a table `[N]`, start indices `[A, B, C, 1]` and a result
    `[A, B, C]`: the one table axis collapsed, the start index's one component on the last axis. -/
abbrev takeDims3 (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- The start-indices index `[a, b, c, 0]` of result index `(a, b, c)`. -/
abbrev takeIdx3 {A B C : Nat} (y : (⟨3, ![A, B, C]⟩ : Shape).Idx) : (⟨4, ![A, B, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The lookup read at `(a, b, c)`: the table at the start index `idx[a, b, c, 0]`, read signed and clamped into
    `[0, N − 1]`. -/
theorem gather_take3_apply {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (y : (⟨3, ![A, B, C]⟩ : Shape).Idx) :
    Host.gather (takeDims3 N A B C wf) x idx y = x (ix1 ⟨min (idx (takeIdx3 y)).toInt.toNat (N - 1), by omega⟩) := by
  unfold Host.gather
  congr 1
  funext a
  obtain rfl : a = 0 := Subsingleton.elim _ _
  refine Fin.ext ?_
  show (takeDims3 N A B C wf).start y idx 0 + (takeDims3 N A B C wf).batchCoord y 0
      + (takeDims3 N A B C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims3 N A B C wf).startIndexMap from List.mem_singleton.mpr rfl)]
  have hsi : (takeDims3 N A B C wf).siIdx y ⟨List.idxOf (0 : Fin 1) (takeDims3 N A B C wf).startIndexMap,
      List.idxOf_lt_length_iff.2 (List.mem_singleton.mpr rfl)⟩ = takeIdx3 y := by
    funext b; refine Fin.ext ?_
    match b with
    | ⟨0, _⟩ => rfl
    | ⟨1, _⟩ => rfl
    | ⟨2, _⟩ => rfl
    | ⟨3, _⟩ => rfl
  rw [hsi]
  rfl

end Take3

/-- The reference's lookup at a voxel: the table at the voxel's start index, read signed and clamped into [0, 256]. -/
theorem lookup_apply {α : Type} {w : Nat} (x : S257.Idx → α) (idx : IVec S256x256x256x1 w) (y : S256x256x256.Idx) :
    Host.gather gather_S257_S256x256x256x1_S256x256x256_n_0_n_n_0_3_1 x idx y
      = x (ix1 ⟨min (idx (takeIdx3 y)).toInt.toNat 256, by omega⟩) :=
  gather_take3_apply (N := 257) (by decide) gather_S257_S256x256x256x1_S256x256x256_n_0_n_n_0_3_1_wf x idx y

/-! ## The index the reference looks up -/

/-- The reference's start index for a label: a negative label moved up by 257, any other label itself. -/
def refIdx (L : BitVec 32) : BitVec 32 :=
  Scalar.select (IntOp.cmpi .slt L 0#32) (IntOp.addi L 257#32) L

/-- A vessel label is positive, read signed. -/
theorem vessel_pos {L : BitVec 32} (h : Cert.Spec.vessel L = 1#1) : 0 < L.toInt := by
  have hb : (0#32).slt L = true := by
    cases hb : (0#32).slt L
    · have : Cert.Spec.vessel L = 0#1 := by
        simp only [Cert.Spec.vessel, IntOp.cmpi, hb]; rfl
      rw [this] at h; exact absurd h (by decide)
    · rfl
  rw [BitVec.slt, decide_eq_true_eq] at hb
  simpa using hb

/-- On a vessel voxel the label is positive, so the start index is the label and its clamp is the label's id. -/
theorem refIdx_vessel {L : BitVec 32} (h : Cert.Spec.vessel L = 1#1) :
    min (refIdx L).toInt.toNat 256 = Cert.Spec.idNat L := by
  have hpos := vessel_pos h
  have hn : L.slt 0#32 = false := by
    rw [BitVec.slt, decide_eq_false_iff_not]
    have : (0#32 : BitVec 32).toInt = 0 := by decide
    omega
  have : refIdx L = L := by
    simp only [refIdx, IntOp.cmpi, hn]
    exact select_zero _ _
  rw [this]; rfl

/-! ## The stages at a voxel -/

/-- The start-indices array read at a voxel's start position is the start index of the voxel's label. -/
theorem start_v7 (x0 : (⟨S256x256x256, .i32⟩ : BufTy).Contents (Elt Ideal)) (i : S256x256x256.Idx) :
    Read.val_main_v7 (F := Ideal) x0 (takeIdx3 i) = refIdx (x0 i) := by
  have hi : Read.idx_main_v7 (takeIdx3 i) = i := by
    funext a; refine Fin.ext ?_
    match a with
    | ⟨0, _⟩ => rfl
    | ⟨1, _⟩ => rfl
    | ⟨2, _⟩ => rfl
  rw [Read.val_main_v7_apply, hi, Read.val_main_v6_apply, Read.val_main_v3_apply, Read.val_main_v2_apply,
    Read.val_main_c_0_apply, Read.val_main_v5_apply, Read.val_main_v4_apply, Read.val_main_c_1_apply]
  rfl

theorem start_v15 (x0 : (⟨S256x256x256, .i32⟩ : BufTy).Contents (Elt Ideal)) (i : S256x256x256.Idx) :
    Read.val_main_v15 (F := Ideal) x0 (takeIdx3 i) = refIdx (x0 i) := by
  have hi : Read.idx_main_v15 (takeIdx3 i) = i := by
    funext a; refine Fin.ext ?_
    match a with
    | ⟨0, _⟩ => rfl
    | ⟨1, _⟩ => rfl
    | ⟨2, _⟩ => rfl
  rw [Read.val_main_v15_apply, hi, Read.val_main_v14_apply, Read.val_main_v11_apply, Read.val_main_v10_apply,
    Read.val_main_c_2_apply, Read.val_main_v13_apply, Read.val_main_v12_apply, Read.val_main_c_3_apply]
  rfl

/-- The vessel test the reference computes is the specification's. -/
theorem vessel_v1 (x0 : (⟨S256x256x256, .i32⟩ : BufTy).Contents (Elt Ideal)) (i : S256x256x256.Idx) :
    Read.val_main_v1 (F := Ideal) x0 i = Cert.Spec.vessel (x0 i) := by
  rw [Read.val_main_v1_apply, Read.val_main_v0_apply, Read.val_main_c_apply]
  rfl

/-- The table index of a clamped start index. -/
def tabIdx (L : BitVec 32) : S257.Idx := ix1 ⟨min (refIdx L).toInt.toNat 256, by omega⟩

theorem tabIdx_vessel {L : BitVec 32} (h : Cert.Spec.vessel L = 1#1) : tabIdx L = Cert.Spec.idOf L := by
  unfold tabIdx Cert.Spec.idOf
  congr 1
  exact Fin.ext (refIdx_vessel h)

/-- The looked-up intensity at a voxel. -/
theorem inten_v8 (x0 : (⟨S256x256x256, .i32⟩ : BufTy).Contents (Elt Ideal)) (x1 : (⟨S257, .f32⟩ : BufTy).Contents (Elt Ideal))
    (i : S256x256x256.Idx) :
    Read.val_main_v8 (F := Ideal) x0 x1 i = x1 (tabIdx (x0 i)) := by
  unfold Read.val_main_v8
  rw [lookup_apply]
  unfold tabIdx
  congr 2
  refine Fin.ext ?_
  show min (Read.val_main_v7 (F := Ideal) x0 (takeIdx3 i)).toInt.toNat 256 = _
  rw [start_v7]

/-- The looked-up class bit at a voxel. -/
theorem bits_v16 (x0 : (⟨S256x256x256, .i32⟩ : BufTy).Contents (Elt Ideal)) (x2 : (⟨S257, .i32⟩ : BufTy).Contents (Elt Ideal))
    (i : S256x256x256.Idx) :
    Read.val_main_v16 (F := Ideal) x0 x2 i = x2 (tabIdx (x0 i)) := by
  unfold Read.val_main_v16
  rw [lookup_apply]
  unfold tabIdx
  congr 2
  refine Fin.ext ?_
  show min (Read.val_main_v15 (F := Ideal) x0 (takeIdx3 i)).toInt.toNat 256 = _
  rw [start_v15]

/-- The reference's volume is the specification's. -/
theorem ref_vol (x0 : (⟨S256x256x256, .i32⟩ : BufTy).Contents (Elt Ideal)) (x1 : (⟨S257, .f32⟩ : BufTy).Contents (Elt Ideal))
    (x3 : (⟨S256x256x256, .f32⟩ : BufTy).Contents (Elt Ideal)) :
    Cert.ReferenceIdeal.Read.val_main_v30 (F := Ideal) x0 x1 x3 = Cert.Spec.Gvol x0 x1 x3 := by
  funext i
  rw [Read.val_main_v30_apply, Read.val_main_v9_apply, vessel_v1, inten_v8, Read.val_main_call0_v1_apply,
    Read.val_main_call0_v0_apply, Read.val_main_cst_apply]
  show x3 i * Scalar.select (Cert.Spec.vessel (x0 i)) (x1 (tabIdx (x0 i))) (Ideal.ofBits .f32 0x3F800000#32)
    = x3 i * Scalar.select (Cert.Spec.vessel (x0 i)) (x1 (Cert.Spec.idOf (x0 i))) 1
  rw [Cert.Literals.one_eq]
  rcases Cert.Spec.vessel_cases (x0 i) with hv | hv
  · rw [hv, select_zero, select_zero]
  · rw [tabIdx_vessel hv]

/-! ## The one-hot map -/

/-- The voxel of a one-channel index `[0, p, q, r]`. -/
theorem idx_v26 (p q r : Fin 256) :
    Read.idx_main_v26 (ix4 (n0 := 1) (n1 := 256) (n2 := 256) (n3 := 256) 0 p q r) = ix3 p q r := by
  funext a; refine Fin.ext ?_
  match a with
  | ⟨0, _⟩ => rfl
  | ⟨1, _⟩ => rfl
  | ⟨2, _⟩ => rfl

/-- The background channel at a voxel: 1 off the vessels, 0 on them. -/
theorem chan0_apply (x0 : (⟨S256x256x256, .i32⟩ : BufTy).Contents (Elt Ideal)) (i : S256x256x256.Idx) :
    Read.val_main_v17 (F := Ideal) x0 i = Scalar.select (Cert.Spec.vessel (x0 i)) 0 1 := by
  rw [Read.val_main_v17_apply, vessel_v1, Read.val_main_call1_v0_apply, Read.val_main_cst_4_apply,
    Read.val_main_call1_v1_apply, Read.val_main_cst_5_apply]
  show Scalar.select _ (Ideal.ofBits .f32 0x00000000#32) (Ideal.ofBits .f32 0x3F800000#32) = _
  rw [Cert.Literals.zero_eq, Cert.Literals.one_eq]

/-- The class-0 channel at a voxel, from the class bit looked up at the reference's index. -/
theorem chan1_apply (x0 : (⟨S256x256x256, .i32⟩ : BufTy).Contents (Elt Ideal)) (x2 : (⟨S257, .i32⟩ : BufTy).Contents (Elt Ideal))
    (i : S256x256x256.Idx) :
    Read.val_main_v21 (F := Ideal) x0 x2 i
      = Scalar.select (IntOp.andi (Cert.Spec.vessel (x0 i)) (IntOp.cmpi .eq (x2 (tabIdx (x0 i))) 0#32)) 1 0 := by
  rw [Read.val_main_v21_apply, Read.val_main_v20_apply, vessel_v1, Read.val_main_v19_apply, bits_v16,
    Read.val_main_v18_apply, Read.val_main_c_6_apply, Read.val_main_call2_v0_apply, Read.val_main_cst_7_apply,
    Read.val_main_call2_v1_apply, Read.val_main_cst_8_apply]
  show Scalar.select _ (Ideal.ofBits .f32 0x3F800000#32) (Ideal.ofBits .f32 0x00000000#32) = _
  rw [Cert.Literals.zero_eq, Cert.Literals.one_eq]

/-- The class-1 channel at a voxel, from the class bit looked up at the reference's index. -/
theorem chan2_apply (x0 : (⟨S256x256x256, .i32⟩ : BufTy).Contents (Elt Ideal)) (x2 : (⟨S257, .i32⟩ : BufTy).Contents (Elt Ideal))
    (i : S256x256x256.Idx) :
    Read.val_main_v25 (F := Ideal) x0 x2 i
      = Scalar.select (IntOp.andi (Cert.Spec.vessel (x0 i)) (IntOp.cmpi .eq (x2 (tabIdx (x0 i))) 1#32)) 1 0 := by
  rw [Read.val_main_v25_apply, Read.val_main_v24_apply, vessel_v1, Read.val_main_v23_apply, bits_v16,
    Read.val_main_v22_apply, Read.val_main_c_9_apply, Read.val_main_call3_v0_apply, Read.val_main_cst_10_apply,
    Read.val_main_call3_v1_apply, Read.val_main_cst_11_apply]
  show Scalar.select _ (Ideal.ofBits .f32 0x3F800000#32) (Ideal.ofBits .f32 0x00000000#32) = _
  rw [Cert.Literals.zero_eq, Cert.Literals.one_eq]

/-- Off the vessels a channel's test fails whatever class bit was looked up; on them the bit is the id's. -/
theorem classTest_eq (L : BitVec 32) (bits : S257.Idx → BitVec 32) (k : BitVec 32) :
    IntOp.andi (Cert.Spec.vessel L) (IntOp.cmpi .eq (bits (tabIdx L)) k)
      = IntOp.andi (Cert.Spec.vessel L) (IntOp.cmpi .eq (bits (Cert.Spec.idOf L)) k) := by
  rcases Cert.Spec.vessel_cases L with hv | hv
  · rw [hv]; simp [IntOp.andi]
  · rw [tabIdx_vessel hv]

/-- The three one-channel arrays the reference joins, as one family over the channel. -/
def chan (x0 : (⟨S256x256x256, .i32⟩ : BufTy).Contents (Elt Ideal)) (x2 : (⟨S257, .i32⟩ : BufTy).Contents (Elt Ideal)) :
    Fin 3 → (S1x256x256x256.Idx → EReal)
  | 0 => Read.val_main_v26 (F := Ideal) x0
  | 1 => Read.val_main_v27 (F := Ideal) x0 x2
  | 2 => Read.val_main_v28 (F := Ideal) x0 x2

/-- The joined array at `[c, p, q, r]` is channel `c` at `[0, p, q, r]`. -/
theorem hot_apply (x0 : (⟨S256x256x256, .i32⟩ : BufTy).Contents (Elt Ideal)) (x2 : (⟨S257, .i32⟩ : BufTy).Contents (Elt Ideal))
    (c : Fin 3) (p q r : Fin 256) :
    Read.val_main_v29 (F := Ideal) x0 x2 (ix4 (n0 := 3) (n1 := 256) (n2 := 256) (n3 := 256) c p q r)
      = chan x0 x2 c (ix4 (n0 := 1) (n1 := 256) (n2 := 256) (n3 := 256) 0 p q r) := by
  unfold Read.val_main_v29
  exact concatenate_ofFn_unit_apply (t := S3x256x256x256) (s₁ := S1x256x256x256) (0 : Fin 4) (chan x0 x2)
    concatenates_S1x256x256x256_S1x256x256x256_S1x256x256x256_S3x256x256x256_d0 rfl rfl
    (ix4 (n0 := 3) (n1 := 256) (n2 := 256) (n3 := 256) c p q r) c rfl
    (ix4 (n0 := 1) (n1 := 256) (n2 := 256) (n3 := 256) 0 p q r)
    (fun b hb => by
      match b with
      | ⟨0, _⟩ => exact absurd rfl hb
      | ⟨1, _⟩ => rfl
      | ⟨2, _⟩ => rfl
      | ⟨3, _⟩ => rfl)

/-- The reference's one-hot map is the specification's. -/
theorem ref_hot (x0 : (⟨S256x256x256, .i32⟩ : BufTy).Contents (Elt Ideal)) (x2 : (⟨S257, .i32⟩ : BufTy).Contents (Elt Ideal)) :
    Cert.ReferenceIdeal.Read.val_main_v29 (F := Ideal) x0 x2 = Cert.Spec.Ghot x0 x2 := by
  funext j
  obtain ⟨c, p, q, r, rfl⟩ : ∃ (c : Fin 3) (p q r : Fin 256),
      j = ix4 (n0 := 3) (n1 := 256) (n2 := 256) (n3 := 256) c p q r := ⟨j 0, j 1, j 2, j 3, eq_ix4 j⟩
  rw [hot_apply]
  show chan x0 x2 c (ix4 (n0 := 1) (n1 := 256) (n2 := 256) (n3 := 256) 0 p q r)
    = Cert.Spec.hotAt c (x0 (ix3 p q r)) (x2 (Cert.Spec.idOf (x0 (ix3 p q r))))
  match c with
  | 0 =>
    show Read.val_main_v26 (F := Ideal) x0 _ = Scalar.select (Cert.Spec.vessel (x0 (ix3 p q r))) 0 1
    rw [Read.val_main_v26_apply, idx_v26, chan0_apply]
  | 1 =>
    show Read.val_main_v27 (F := Ideal) x0 x2 _ = Scalar.select (IntOp.andi (Cert.Spec.vessel (x0 (ix3 p q r)))
      (IntOp.cmpi .eq (x2 (Cert.Spec.idOf (x0 (ix3 p q r)))) 0#32)) 1 0
    rw [Read.val_main_v27_apply, show Read.idx_main_v27 _ = ix3 p q r from idx_v26 p q r, chan1_apply, classTest_eq]
  | 2 =>
    show Read.val_main_v28 (F := Ideal) x0 x2 _ = Scalar.select (IntOp.andi (Cert.Spec.vessel (x0 (ix3 p q r)))
      (IntOp.cmpi .eq (x2 (Cert.Spec.idOf (x0 (ix3 p q r)))) 1#32)) 1 0
    rw [Read.val_main_v28_apply, show Read.idx_main_v28 _ = ix3 p q r from idx_v26 p q r, chan2_apply, classTest_eq]

end Cert.RefValue

end
-- ==== Proof.Lanes.lean ====
/- The kernel's table lookup, as arithmetic on one label.

   The packed table has 3 rows of 128 lanes. The kernel clamps the label into [0, 256], gathers one lane from each
   row — lane min(c, 127) of row 0, lane clamp(c − 128, 0, 127) of row 1, lane max(c − 256, 0) of row 2 — and keeps
   row 0's value when c < 128, row 1's when c < 256, row 2's otherwise. Whatever the label, the value kept is the
   table's entry at row c / 128, lane c % 128, where c is the clamped label: the specification's slot. -/
import proofs.«429853_j74156905333425_3_alg».proof.Proof.Spec
import Idealize.ShloMosaic.Lib.ValueIdx

noncomputable section

namespace Cert.Lanes

open Idealize.ShloMosaic Idealize.ShloMosaic.ValueIdx Cert.Spec

/-- The label clamped into [0, 256], as the kernel computes it. -/
def clip (L : BitVec 32) : BitVec 32 := IntOp.minsi 256#32 (IntOp.maxsi 0#32 L)

/-- A lane number with a negative one moved up by 128 (a gather's index normalisation). -/
def wrap (i : BitVec 32) : BitVec 32 := Scalar.select (IntOp.cmpi .slt i 0#32) (IntOp.addi i 128#32) i

/-- The lane read from row 0. -/
def lane0 (L : BitVec 32) : BitVec 32 := wrap (IntOp.minsi (clip L) 127#32)
/-- The lane read from row 1. -/
def lane1 (L : BitVec 32) : BitVec 32 := wrap (IntOp.minsi 127#32 (IntOp.maxsi 0#32 (IntOp.subi (clip L) 128#32)))
/-- The lane read from row 2. -/
def lane2 (L : BitVec 32) : BitVec 32 := wrap (IntOp.maxsi (IntOp.subi (clip L) 256#32) 0#32)

/-- A lane word as a lane of the 128: its value modulo 128. -/
def laneFin (i : BitVec 32) : Fin 128 := ⟨i.toNat % 128, Nat.mod_lt _ (by decide)⟩

/-! ## Signed readings of the word operations -/

/-- The signed reading of a word from its unsigned one: words below 2³¹ read as themselves, the others 2³² lower. -/
theorem toInt_cases (x : BitVec 32) :
    (x.toNat < 2147483648 ∧ x.toInt = (x.toNat : Int)) ∨
      (2147483648 ≤ x.toNat ∧ x.toInt = (x.toNat : Int) - 4294967296) := by
  have h := BitVec.toInt_eq_toNat_cond x
  have hlt := x.isLt
  split_ifs at h <;> omega

/-- A word whose signed reading is not negative has that reading as its unsigned one. -/
theorem toNat_of_nonneg {x : BitVec 32} (h : 0 ≤ x.toInt) : (x.toNat : Int) = x.toInt := by
  rcases toInt_cases x with ⟨_, h1⟩ | ⟨_, h1⟩ <;> omega

/-- The signed minimum reads as the minimum of the signed readings. -/
theorem toInt_minsi (x y : BitVec 32) : (IntOp.minsi x y).toInt = min x.toInt y.toInt := by
  unfold IntOp.minsi BitVec.slt
  simp only [decide_eq_true_eq]
  split_ifs <;> omega

/-- The signed maximum reads as the maximum of the signed readings. -/
theorem toInt_maxsi (x y : BitVec 32) : (IntOp.maxsi x y).toInt = max x.toInt y.toInt := by
  unfold IntOp.maxsi BitVec.slt
  simp only [decide_eq_true_eq]
  split_ifs <;> omega

/-- A difference of two words of small signed readings does not wrap. -/
theorem toInt_subi {x y : BitVec 32} (hx0 : 0 ≤ x.toInt) (hx1 : x.toInt ≤ 256) (hy0 : 0 ≤ y.toInt)
    (hy1 : y.toInt ≤ 256) : (IntOp.subi x y).toInt = x.toInt - y.toInt := by
  unfold IntOp.subi
  have hs := BitVec.toNat_sub x y
  have hX := toNat_of_nonneg hx0
  have hY := toNat_of_nonneg hy0
  rcases toInt_cases (x - y) with ⟨h1, h2⟩ | ⟨h1, h2⟩ <;> omega

theorem toInt_lit0 : (0#32 : BitVec 32).toInt = 0 := by decide
theorem toInt_lit127 : (127#32 : BitVec 32).toInt = 127 := by decide
theorem toInt_lit128 : (128#32 : BitVec 32).toInt = 128 := by decide
theorem toInt_lit256 : (256#32 : BitVec 32).toInt = 256 := by decide

/-- A choice on a test bit made from a Boolean is the choice on that Boolean. -/
theorem select_ofBool {α : Type} (b : Bool) (x y : α) :
    Scalar.select (BitVec.ofBool b) x y = if b then x else y := by
  cases b <;> rfl

/-- The signed "less than" test, as a choice on the comparison of the signed readings. -/
theorem select_slt {α : Type} (x y : BitVec 32) (a b : α) :
    Scalar.select (IntOp.cmpi .slt x y) a b = if x.toInt < y.toInt then a else b := by
  unfold IntOp.cmpi
  rw [select_ofBool]
  unfold BitVec.slt
  simp only [decide_eq_true_eq]

/-- A lane number that is not negative is left alone. -/
theorem wrap_of_nonneg {i : BitVec 32} (h : 0 ≤ i.toInt) : wrap i = i := by
  unfold wrap
  rw [select_slt, toInt_lit0, if_neg (by omega)]

/-! ## The clamped label and the three lanes -/

/-- The clamped label reads, signed, as the id's number. -/
theorem clip_toInt (L : BitVec 32) : (clip L).toInt = (idNat L : Int) := by
  unfold clip idNat
  rw [toInt_minsi, toInt_maxsi, toInt_lit0, toInt_lit256]
  omega

/-- Row 0's lane: the id's number, held at 127. -/
theorem lane0_toNat (L : BitVec 32) : ((lane0 L).toNat : Int) = min (idNat L : Int) 127 := by
  have hc := clip_toInt L
  have hv : (IntOp.minsi (clip L) 127#32).toInt = min (idNat L : Int) 127 := by
    rw [toInt_minsi, toInt_lit127, hc]
  unfold lane0
  rw [wrap_of_nonneg (by omega), toNat_of_nonneg (by omega), hv]

/-- Row 1's lane: the id's number less 128, held between 0 and 127. -/
theorem lane1_toNat (L : BitVec 32) : ((lane1 L).toNat : Int) = min 127 (max 0 ((idNat L : Int) - 128)) := by
  have hc := clip_toInt L
  have hn := idNat_le L
  have hs : (IntOp.subi (clip L) 128#32).toInt = (idNat L : Int) - 128 := by
    rw [toInt_subi (by omega) (by omega) (by decide) (by decide), hc, toInt_lit128]
  have hv : (IntOp.minsi 127#32 (IntOp.maxsi 0#32 (IntOp.subi (clip L) 128#32))).toInt
      = min 127 (max 0 ((idNat L : Int) - 128)) := by
    rw [toInt_minsi, toInt_maxsi, toInt_lit127, toInt_lit0, hs]
  unfold lane1
  rw [wrap_of_nonneg (by omega), toNat_of_nonneg (by omega), hv]

/-- Row 2's lane: the id's number less 256, held at 0 from below. -/
theorem lane2_toNat (L : BitVec 32) : ((lane2 L).toNat : Int) = max ((idNat L : Int) - 256) 0 := by
  have hc := clip_toInt L
  have hn := idNat_le L
  have hs : (IntOp.subi (clip L) 256#32).toInt = (idNat L : Int) - 256 := by
    rw [toInt_subi (by omega) (by omega) (by decide) (by decide), hc, toInt_lit256]
  have hv : (IntOp.maxsi (IntOp.subi (clip L) 256#32) 0#32).toInt = max ((idNat L : Int) - 256) 0 := by
    rw [toInt_maxsi, toInt_lit0, hs]
  unfold lane2
  rw [wrap_of_nonneg (by omega), toNat_of_nonneg (by omega), hv]

/-- Two rank-2 indices with equal coordinates are equal. -/
theorem ix2_congr {n0 n1 : Nat} {a a' : Fin n0} {b b' : Fin n1} (ha : a = a') (hb : b = b') :
    ix2 a b = ix2 a' b' := by
  subst ha; subst hb; rfl

/-- THE LOOKUP: the three-way choice among the three rows' gathered lanes is the table at the label's slot. -/
theorem pick_eq {α : Type} (T : SRows.Idx → α) (L : BitVec 32) :
    Scalar.select (IntOp.cmpi .slt (clip L) 128#32) (T (ix2 (n0 := 3) (n1 := 128) 0 (laneFin (lane0 L))))
      (Scalar.select (IntOp.cmpi .slt (clip L) 256#32) (T (ix2 (n0 := 3) (n1 := 128) 1 (laneFin (lane1 L))))
        (T (ix2 (n0 := 3) (n1 := 128) 2 (laneFin (lane2 L)))))
      = T (slotOf L) := by
  have hc := clip_toInt L
  have hn := idNat_le L
  have h0 := lane0_toNat L
  have h1 := lane1_toNat L
  have h2 := lane2_toNat L
  rw [select_slt, select_slt, hc, toInt_lit128, toInt_lit256]
  by_cases hA : (idNat L : Int) < 128
  · rw [if_pos hA]
    refine congrArg T (ix2_congr (Fin.ext ?_) (Fin.ext ?_))
    · show (0 : Nat) = idNat L / 128
      omega
    · show (lane0 L).toNat % 128 = idNat L % 128
      omega
  · rw [if_neg hA]
    by_cases hB : (idNat L : Int) < 256
    · rw [if_pos hB]
      refine congrArg T (ix2_congr (Fin.ext ?_) (Fin.ext ?_))
      · show (1 : Nat) = idNat L / 128
        omega
      · show (lane1 L).toNat % 128 = idNat L % 128
        omega
    · rw [if_neg hB]
      refine congrArg T (ix2_congr (Fin.ext ?_) (Fin.ext ?_))
      · show (2 : Nat) = idNat L / 128
        omega
      · show (lane2 L).toNat % 128 = idNat L % 128
        omega

end Cert.Lanes

end
-- ==== Proof.PackedLookup.lean ====
/- The kernel's table lookup inside one grid point's block. The point's 8 × 256 × 256 labels are clamped, re-laid as
   8 × 256 × 2 × 128 (a column c becomes group c / 128, lane c % 128), each of the table's three rows is spread over
   that shape and permuted along the lanes by the row's lane numbers, the three results are chosen among by the
   clamped label, and the choice is laid back as 8 × 256 × 256. At (plane, row, column) the result is the table at
   the slot of that voxel's label. -/
import proofs.«429853_j74156905333425_3_alg».proof.Proof.Gen.KernelIdeal.Skeleton
import proofs.«429853_j74156905333425_3_alg».proof.Proof.Spec
import proofs.«429853_j74156905333425_3_alg».proof.Proof.Lanes
import Idealize.ShloMosaic.Lib.ValueIdx
import Idealize.ShloMosaic.Lib.ValueLayout
import Idealize.ShloMosaic.Lib.Pipeline.Value

noncomputable section

namespace Cert.PackedLookup

open Idealize.ShloMosaic Idealize.ShloMosaic.ValueIdx Cert.KernelIdeal Cert.KernelIdeal.Gen

/-! ## A column of the 256 as a group of 128 and a lane in it -/

/-- The group a column lies in: column / 128. -/
def grp (c : Fin 256) : Fin 2 := ⟨c.val / 128, by have := c.isLt; omega⟩
/-- The column's lane in its group: column % 128. -/
def lan (c : Fin 256) : Fin 128 := ⟨c.val % 128, Nat.mod_lt _ (by decide)⟩

/-- An 8 × 256 × 2 × 128 array laid back as 8 × 256 × 256 reads, at column c, its entry at (c / 128, c % 128): the two
    row-major positions agree, 128 · (c / 128) + c % 128 = c. -/
theorem unsplit_apply {α : Type} (v : S8x256x2x128.Idx → α) (h : S8x256x2x128.ShapeCasts S8x256x256)
    (a : Fin 8) (b c : Fin 256) :
    shapeCast S8x256x256 v h (ix3 a b c) = v (ix4 a b (grp c) (lan c)) :=
  shapeCast_apply v h _ _ (by
    rw [Shape.rowMajor_val_four, Shape.rowMajor_val_three]
    show ((a.val * 256 + b.val) * 2 + c.val / 128) * 128 + c.val % 128 = (a.val * 256 + b.val) * 256 + c.val
    omega)

/-- An 8 × 256 × 256 array re-laid as 8 × 256 × 2 × 128 reads, at column c's group and lane, its entry at column c. -/
theorem split_apply {α : Type} (v : S8x256x256.Idx → α) (h : S8x256x256.ShapeCasts S8x256x2x128)
    (a : Fin 8) (b c : Fin 256) :
    shapeCast S8x256x2x128 v h (ix4 a b (grp c) (lan c)) = v (ix3 a b c) :=
  shapeCast_apply v h _ _ (by
    rw [Shape.rowMajor_val_four, Shape.rowMajor_val_three]
    show (a.val * 256 + b.val) * 256 + c.val = ((a.val * 256 + b.val) * 2 + c.val / 128) * 128 + c.val % 128
    omega)

/-! ## The clamped label and what is computed from it, at (plane, row, group, lane) -/

/-- The re-laid clamped label at column c's place is the clamp of the label at column c. -/
theorem clip_apply (x1 : Vec Ideal S8x256x256 .i32) (a : Fin 8) (b c : Fin 256) :
    k0_pay5 (F := Ideal) x1 (ix4 a b (grp c) (lan c)) = Cert.Lanes.clip (x1 (ix3 a b c)) := by
  unfold k0_pay5
  exact split_apply _ _ a b c

/-- "The clamped label is below 128", there. -/
theorem below128_apply (x1 : Vec Ideal S8x256x256 .i32) (a : Fin 8) (b c : Fin 256) :
    k0_pay11 (F := Ideal) x1 (ix4 a b (grp c) (lan c)) = IntOp.cmpi .slt (Cert.Lanes.clip (x1 (ix3 a b c))) 128#32 := by
  unfold k0_pay11
  show IntOp.cmpi .slt (k0_pay5 (F := Ideal) x1 (ix4 a b (grp c) (lan c))) 128#32 = _
  rw [clip_apply]

/-- "The clamped label is below 256", there. -/
theorem below256_apply (x1 : Vec Ideal S8x256x256 .i32) (a : Fin 8) (b c : Fin 256) :
    k0_pay12 (F := Ideal) x1 (ix4 a b (grp c) (lan c)) = IntOp.cmpi .slt (Cert.Lanes.clip (x1 (ix3 a b c))) 256#32 := by
  unfold k0_pay12
  show IntOp.cmpi .slt (k0_pay5 (F := Ideal) x1 (ix4 a b (grp c) (lan c))) 256#32 = _
  rw [clip_apply]

/-- Row 0's lane number before the wrap, there. -/
theorem num0_apply (x1 : Vec Ideal S8x256x256 .i32) (a : Fin 8) (b c : Fin 256) :
    k0_pay13 (F := Ideal) x1 (ix4 a b (grp c) (lan c)) = IntOp.minsi (Cert.Lanes.clip (x1 (ix3 a b c))) 127#32 := by
  unfold k0_pay13
  show IntOp.minsi (k0_pay5 (F := Ideal) x1 (ix4 a b (grp c) (lan c))) 127#32 = _
  rw [clip_apply]

/-- Row 1's lane number before the wrap, there. -/
theorem num1_apply (x1 : Vec Ideal S8x256x256 .i32) (a : Fin 8) (b c : Fin 256) :
    k0_pay14 (F := Ideal) x1 (ix4 a b (grp c) (lan c))
      = IntOp.minsi 127#32 (IntOp.maxsi 0#32 (IntOp.subi (Cert.Lanes.clip (x1 (ix3 a b c))) 128#32)) := by
  unfold k0_pay14
  show IntOp.minsi 127#32 (IntOp.maxsi 0#32 (IntOp.subi (k0_pay5 (F := Ideal) x1 (ix4 a b (grp c) (lan c))) 128#32)) = _
  rw [clip_apply]

/-- Row 2's lane number before its lower clamp and the wrap, there. -/
theorem num2_apply (x1 : Vec Ideal S8x256x256 .i32) (a : Fin 8) (b c : Fin 256) :
    k0_pay15 (F := Ideal) x1 (ix4 a b (grp c) (lan c)) = IntOp.subi (Cert.Lanes.clip (x1 (ix3 a b c))) 256#32 := by
  unfold k0_pay15
  show IntOp.subi (k0_pay5 (F := Ideal) x1 (ix4 a b (grp c) (lan c))) 256#32 = _
  rw [clip_apply]

/-! ## A table row spread over the block -/

/-- Row k of a 3 × 128 table, cut out, flattened to its 128 lanes, given three leading unit axes and repeated over
    8 × 256 × 2 × 128, reads at (plane, row, group, lane) the table's entry (k, lane). -/
theorem spread_apply {α : Type} (X : S3x128.Idx → α) (k : Nat) (hk : k < 3) (hs : S3x128.Slices ![k, 0] S1x128)
    (h1 : S1x128.ShapeCasts S128) (h2 : S128.ShapeCasts S1x1x1x128) (h3 : S1x1x1x128.ShapeCasts S1x1x1x128)
    (hb : S1x1x1x128.Broadcasts S8x256x2x128) (a : Fin 8) (b : Fin 256) (g : Fin 2) (l : Fin 128) :
    broadcastTo S8x256x2x128
        (shapeCast S1x1x1x128 (shapeCast S1x1x1x128 (shapeCast S128 (extractStridedSlice S1x128 ![k, 0] X hs) h1) h2) h3)
        hb (ix4 a b g l)
      = X (ix2 ⟨k, hk⟩ l) := by
  rw [shapeCast_self]
  refine (broadcastTo_apply _ hb (ix4 a b g l) (ix4 (0 : Fin 1) (0 : Fin 1) (0 : Fin 1) l) fun ax => ?_).trans ?_
  · match ax with
    | ⟨0, _⟩ => rfl
    | ⟨1, _⟩ => rfl
    | ⟨2, _⟩ => rfl
    | ⟨3, _⟩ => rfl
  refine (shapeCast_apply _ h2 (ix4 (0 : Fin 1) (0 : Fin 1) (0 : Fin 1) l) (ix1 l) ?_).trans ?_
  · rw [Shape.rowMajor_val_four, Shape.rowMajor_val_one]
    show l.val = ((0 * 1 + 0) * 1 + 0) * 128 + l.val
    omega
  refine (shapeCast_1a_a_apply _ h1 l).trans ?_
  exact slice2_axis0_apply k X hs (0 : Fin 1) l ⟨k, hk⟩ (Nat.add_zero k).symm

/-- The table re-cast to its own shape is the table. -/
theorem table_eq (x0 : Vec Ideal S3x128 .f32) : k0_pay7 x0 = x0 := shapeCast_self _ _

/-- Row 0 spread over the block. -/
theorem row0_apply (x0 : Vec Ideal S3x128 .f32) (a : Fin 8) (b : Fin 256) (g : Fin 2) (l : Fin 128) :
    k0_pay8 x0 (ix4 a b g l) = x0 (ix2 (n0 := 3) (n1 := 128) 0 l) := by
  unfold k0_pay8
  rw [table_eq]
  exact spread_apply x0 0 (by decide) _ _ _ _ _ a b g l

/-- Row 1 spread over the block. -/
theorem row1_apply (x0 : Vec Ideal S3x128 .f32) (a : Fin 8) (b : Fin 256) (g : Fin 2) (l : Fin 128) :
    k0_pay9 x0 (ix4 a b g l) = x0 (ix2 (n0 := 3) (n1 := 128) 1 l) := by
  unfold k0_pay9
  rw [table_eq]
  exact spread_apply x0 1 (by decide) _ _ _ _ _ a b g l

/-- Row 2 spread over the block. -/
theorem row2_apply (x0 : Vec Ideal S3x128 .f32) (a : Fin 8) (b : Fin 256) (g : Fin 2) (l : Fin 128) :
    k0_pay10 x0 (ix4 a b g l) = x0 (ix2 (n0 := 3) (n1 := 128) 2 l) := by
  unfold k0_pay10
  rw [table_eq]
  exact spread_apply x0 2 (by decide) _ _ _ _ _ a b g l

/-! ## The permutation along the lanes -/

/-- A gather along the lane axis reads, at (plane, row, group, lane), the operand at the same plane, row and group and
    at the lane its lane number names: the number's value modulo 128. -/
theorem gather_apply {α : Type} (X : S8x256x2x128.Idx → α) (idx : IVec S8x256x2x128 32)
    (a : Fin 8) (b : Fin 256) (g : Fin 2) (l : Fin 128) :
    dynamicGather (s := S8x256x2x128) 3 X idx (ix4 a b g l)
      = X (ix4 a b g (Cert.Lanes.laneFin (idx (ix4 a b g l)))) := by
  unfold dynamicGather
  refine congrArg X (funext fun d => ?_)
  match d with
  | ⟨0, _⟩ => rfl
  | ⟨1, _⟩ => rfl
  | ⟨2, _⟩ => rfl
  | ⟨3, _⟩ => rfl

/-! ## The whole lookup -/

/-- The lookup over any three spread rows, two conditions and three lane numbers: at (plane, row, column) it is the
    choice, by the two conditions at the column's group and lane, among the three rows read at their wrapped lane numbers. -/
theorem choose_apply (r0 r1 r2 : FVec Ideal S8x256x2x128 .f32) (c0 c1 : IVec S8x256x2x128 1)
    (i0 i1 i2 : IVec S8x256x2x128 32) (a : Fin 8) (b c : Fin 256) :
    k0_pay16 (F := Ideal) r0 r1 r2 c0 c1 i0 i1 i2 0#32 (ix3 a b c)
      = Scalar.select (c0 (ix4 a b (grp c) (lan c)))
          (r0 (ix4 a b (grp c) (Cert.Lanes.laneFin (Cert.Lanes.wrap (i0 (ix4 a b (grp c) (lan c)))))))
          (Scalar.select (c1 (ix4 a b (grp c) (lan c)))
            (r1 (ix4 a b (grp c) (Cert.Lanes.laneFin (Cert.Lanes.wrap (i1 (ix4 a b (grp c) (lan c)))))))
            (r2 (ix4 a b (grp c) (Cert.Lanes.laneFin
              (Cert.Lanes.wrap (IntOp.maxsi (i2 (ix4 a b (grp c) (lan c))) 0#32)))))) := by
  unfold k0_pay16
  refine (unsplit_apply _ _ a b c).trans ?_
  rw [shapeCast_shapeCast, shapeCast_shapeCast, shapeCast_shapeCast]
  refine (select_apply _ _ _ _).trans ?_
  rw [select_apply, gather_apply, gather_apply, gather_apply]
  rfl

/-- The looked-up packed value at (plane, row, column) is the table's entry at the slot of that voxel's label. -/
theorem packed_apply (x0 : Vec Ideal S3x128 .f32) (x1 : Vec Ideal S8x256x256 .i32) (a : Fin 8) (b c : Fin 256) :
    k0_pay16 (F := Ideal) (k0_pay8 x0) (k0_pay9 x0) (k0_pay10 x0) (k0_pay11 (F := Ideal) x1) (k0_pay12 (F := Ideal) x1)
        (k0_pay13 (F := Ideal) x1) (k0_pay14 (F := Ideal) x1) (k0_pay15 (F := Ideal) x1) 0#32 (ix3 a b c)
      = x0 (Cert.Spec.slotOf (x1 (ix3 a b c))) := by
  rw [choose_apply, row0_apply, row1_apply, row2_apply, below128_apply, below256_apply, num0_apply, num1_apply,
    num2_apply]
  exact Cert.Lanes.pick_eq x0 (x1 (ix3 a b c))

end Cert.PackedLookup

end
-- ==== Proof.KernelPoint.lean ====
/- What one grid point's body leaves in its two output blocks, entry by entry, from the point's input blocks:
   the packed table (whole), the point's 8 planes of labels and of the base field. -/
import proofs.«429853_j74156905333425_3_alg».proof.Proof.Gen.KernelIdeal.Frame
import proofs.«429853_j74156905333425_3_alg».proof.Proof.Literals
import proofs.«429853_j74156905333425_3_alg».proof.Proof.Spec
import proofs.«429853_j74156905333425_3_alg».proof.Proof.PackedLookup
import Idealize.ShloMosaic.Lib.ValueIdx
import Idealize.ShloMosaic.Lib.ValueLayout
import Idealize.ShloMosaic.Lib.Pipeline.Value

noncomputable section

namespace Cert.KernelPoint

open Idealize.ShloMosaic Idealize.ShloMosaic.ValueIdx Cert.KernelIdeal Cert.KernelIdeal.Gen

/-- The three offsets of a whole-buffer rectangle are zero. -/
theorem hz3 : (![0, 0, 0] : Fin 3 → Nat) = fun _ => 0 := funext fun a => by fin_cases a <;> rfl

/-- The two offsets of the whole-table rectangle are zero. -/
theorem hz2 : (![0, 0] : Fin 2 → Nat) = fun _ => 0 := funext fun a => by fin_cases a <;> rfl

/-- The stored volume value at an index: the base field times, on a vessel, the packed value with 4 taken off when it
    is at least 4, and times 1 elsewhere. Every operation of the payload is pointwise. -/
theorem volPay_apply (v1 : Vec Ideal S8x256x256 .f32) (v8 : IVec S8x256x256 1)
    (v15 v20 v25 : FVec Ideal S8x256x2x128 .f32) (v27 v29 : IVec S8x256x2x128 1) (v31 v37 v39 : IVec S8x256x2x128 32)
    (z : BitVec 32) (i : S8x256x256.Idx) :
    k0_pay18 (F := Ideal) v1 v8 v15 v20 v25 v27 v29 v31 v37 v39 z i
      = v1 i * Scalar.select (v8 i)
          (Scalar.select (Cert.Spec.bright (k0_pay16 (F := Ideal) v15 v20 v25 v27 v29 v31 v37 v39 z i))
            (k0_pay16 (F := Ideal) v15 v20 v25 v27 v29 v31 v37 v39 z i - ((4 : ℝ) : EReal))
            (k0_pay16 (F := Ideal) v15 v20 v25 v27 v29 v31 v37 v39 z i)) 1 := by
  unfold k0_pay18 k0_pay17 Cert.Spec.bright
  show v1 i * Scalar.select (v8 i)
      (Scalar.select (Ideal.cmp .oge (k0_pay16 (F := Ideal) v15 v20 v25 v27 v29 v31 v37 v39 z i) (Ideal.ofBits .f32 0x40800000#32))
        (k0_pay16 (F := Ideal) v15 v20 v25 v27 v29 v31 v37 v39 z i - Ideal.ofBits .f32 0x40800000#32)
        (k0_pay16 (F := Ideal) v15 v20 v25 v27 v29 v31 v37 v39 z i)) (Ideal.ofBits .f32 0x3F800000#32) = _
  rw [Cert.Literals.four_eq, Cert.Literals.one_eq]

/-- The vessel test of the payload at an index is the specification's. -/
theorem vesselPay_apply (x1 : Vec Ideal S8x256x256 .i32) (i : S8x256x256.Idx) :
    k0_pay6 (F := Ideal) x1 i = Cert.Spec.vessel (x1 i) := rfl

/-- The volume block at (plane, row, column): the kernel's voxel from the label, the packed entry at the label's slot
    and the base field. -/
theorem out3_apply (x0 : Vec Ideal S3x128 .f32) (x1 : Vec Ideal S8x256x256 .i32) (x2 : Vec Ideal S8x256x256 .f32)
    (a : Fin 8) (b c : Fin 256) :
    out0_3 (F := Ideal) x0 x1 x2 (ix3 a b c)
      = Cert.Spec.volK (x1 (ix3 a b c)) (x0 (Cert.Spec.slotOf (x1 (ix3 a b c)))) (x2 (ix3 a b c)) := by
  unfold out0_3
  rw [View.canon_unit_zero hz3]
  simp only [View.ld_unit_zero (S := S8x256x256) hz3, View.ld_unit_zero (S := S3x128) hz2]
  refine (volPay_apply _ _ _ _ _ _ _ _ _ _ _ _).trans ?_
  rw [Cert.PackedLookup.packed_apply x0 x1 a b c, vesselPay_apply]
  rfl

/-! ## The one-hot block: three channel stores -/

/-- A plane-row-column value recast with a leading unit axis reads, at (0, plane, row, column), the value at
    (plane, row, column). -/
theorem addUnit_apply {α : Type} (v : S8x256x256.Idx → α) (a : Fin 8) (b c : Fin 256) :
    shapeCast S1x8x256x256 v shapeCasts_S8x256x256_S1x8x256x256 (ix4 (0 : Fin 1) a b c) = v (ix3 a b c) := by
  refine (shapeCast_addUnit_apply ![8, 256, 256] v shapeCasts_S8x256x256_S1x8x256x256 (ix4 (0 : Fin 1) a b c)).trans ?_
  refine congrArg v (funext fun d => ?_)
  match d with
  | ⟨0, _⟩ => rfl
  | ⟨1, _⟩ => rfl
  | ⟨2, _⟩ => rfl

/-- The store to channel 2 puts its entry (0, plane, row, column) at (2, plane, row, column). -/
theorem emb_ch2 (a : Fin 8) (b c : Fin 256) : r0_4.emb (ix4 (0 : Fin 1) a b c) = ix4 (2 : Fin 3) a b c := by
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * c.val = c.val; omega

/-- The store to channel 1 puts its entry (0, plane, row, column) at (1, plane, row, column). -/
theorem emb_ch1 (a : Fin 8) (b c : Fin 256) : r0_3.emb (ix4 (0 : Fin 1) a b c) = ix4 (1 : Fin 3) a b c := by
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * c.val = c.val; omega

/-- The store to channel 0 puts its entry (0, plane, row, column) at (0, plane, row, column). -/
theorem emb_ch0 (a : Fin 8) (b c : Fin 256) : r0_2.emb (ix4 (0 : Fin 1) a b c) = ix4 (0 : Fin 3) a b c := by
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * c.val = c.val; omega

/-- An index of channel 1 is outside the rectangle of the store to channel 2. -/
theorem ch1_not_mem_r4 (a : Fin 8) (b c : Fin 256) : ix4 (1 : Fin 3) a b c ∉ r0_4.set := by
  rw [Rect.mem_set_unit]
  exact fun h => absurd (h 0).1 (by show ¬ ((2 : ℕ) ≤ 1); omega)

/-- An index of channel 0 is outside the rectangle of the store to channel 2. -/
theorem ch0_not_mem_r4 (a : Fin 8) (b c : Fin 256) : ix4 (0 : Fin 3) a b c ∉ r0_4.set := by
  rw [Rect.mem_set_unit]
  exact fun h => absurd (h 0).1 (by show ¬ ((2 : ℕ) ≤ 0); omega)

/-- An index of channel 0 is outside the rectangle of the store to channel 1. -/
theorem ch0_not_mem_r3 (a : Fin 8) (b c : Fin 256) : ix4 (0 : Fin 3) a b c ∉ r0_3.set := by
  rw [Rect.mem_set_unit]
  exact fun h => absurd (h 0).1 (by show ¬ ((1 : ℕ) ≤ 0); omega)

/-- The three channel stores read back on channel 2: the last store's payload. -/
theorem canon_ch2 (w4 w3 w2 : Vec Ideal S1x8x256x256 .f32) (a : Fin 8) (b c : Fin 256) :
    View.canon ([⟨r0_4, w4⟩, ⟨r0_3, w3⟩, ⟨r0_2, w2⟩] : List (View.Piece (Elt Ideal) S3x8x256x256 .f32)) (ix4 (2 : Fin 3) a b c)
      = w4 (ix4 (0 : Fin 1) a b c) := by
  rw [← emb_ch2 a b c]
  exact View.canon_cons_emb r0_4 w4 _ (ix4 (0 : Fin 1) a b c)

/-- The three channel stores read back on channel 1: the middle store's payload. -/
theorem canon_ch1 (w4 w3 w2 : Vec Ideal S1x8x256x256 .f32) (a : Fin 8) (b c : Fin 256) :
    View.canon ([⟨r0_4, w4⟩, ⟨r0_3, w3⟩, ⟨r0_2, w2⟩] : List (View.Piece (Elt Ideal) S3x8x256x256 .f32)) (ix4 (1 : Fin 3) a b c)
      = w3 (ix4 (0 : Fin 1) a b c) := by
  refine (View.canon_cons_of_not_mem (⟨r0_4, w4⟩ : View.Piece (Elt Ideal) S3x8x256x256 .f32) [⟨r0_3, w3⟩, ⟨r0_2, w2⟩]
    (ch1_not_mem_r4 a b c)).trans ?_
  rw [← emb_ch1 a b c]
  exact View.canon_cons_emb r0_3 w3 _ (ix4 (0 : Fin 1) a b c)

/-- The three channel stores read back on channel 0: the first store's payload. -/
theorem canon_ch0 (w4 w3 w2 : Vec Ideal S1x8x256x256 .f32) (a : Fin 8) (b c : Fin 256) :
    View.canon ([⟨r0_4, w4⟩, ⟨r0_3, w3⟩, ⟨r0_2, w2⟩] : List (View.Piece (Elt Ideal) S3x8x256x256 .f32)) (ix4 (0 : Fin 3) a b c)
      = w2 (ix4 (0 : Fin 1) a b c) := by
  refine (View.canon_cons_of_not_mem (⟨r0_4, w4⟩ : View.Piece (Elt Ideal) S3x8x256x256 .f32) [⟨r0_3, w3⟩, ⟨r0_2, w2⟩]
    (ch0_not_mem_r4 a b c)).trans ?_
  refine (View.canon_cons_of_not_mem (⟨r0_3, w3⟩ : View.Piece (Elt Ideal) S3x8x256x256 .f32) [⟨r0_2, w2⟩]
    (ch0_not_mem_r3 a b c)).trans ?_
  rw [← emb_ch0 a b c]
  exact View.canon_cons_emb r0_2 w2 _ (ix4 (0 : Fin 1) a b c)

/-- The vessel test as a number, at an index: the one-bit test widened to a word and read signed. -/
theorem vesselNum_apply (x1 : Vec Ideal S8x256x256 .i32) (i : S8x256x256.Idx) :
    k0_pay19 (F := Ideal) (k0_pay6 (F := Ideal) x1) i = Cert.Spec.vesselF (x1 i) := rfl

/-- The class-0 channel before its recast, at an index: 1 where the voxel is a vessel and the packed value is
    below 4, and 0 elsewhere. -/
theorem darkPay_apply (v8 : IVec S8x256x256 1)
    (v15 v20 v25 : FVec Ideal S8x256x2x128 .f32) (v27 v29 : IVec S8x256x2x128 1) (v31 v37 v39 : IVec S8x256x2x128 32)
    (z : BitVec 32) (i : S8x256x256.Idx) :
    k0_pay1 (F := Ideal) (k0_pay20 (F := Ideal) v8 v15 v20 v25 v27 v29 v31 v37 v39 z) (k0_pay21 (F := Ideal)) (k0_pay22 (F := Ideal)) i
      = Scalar.select (IntOp.andi (v8 i)
          (IntOp.xori (Cert.Spec.bright (k0_pay16 (F := Ideal) v15 v20 v25 v27 v29 v31 v37 v39 z i)) 1#1)) 1 0 := by
  unfold k0_pay1 k0_pay20 k0_pay21 k0_pay22 k0_pay17 Cert.Spec.bright
  show Scalar.select (IntOp.andi (v8 i)
      (IntOp.xori (Ideal.cmp .oge (k0_pay16 (F := Ideal) v15 v20 v25 v27 v29 v31 v37 v39 z i) (Ideal.ofBits .f32 0x40800000#32)) 1#1))
      (Ideal.ofBits .f32 0x3F800000#32) (Ideal.ofBits .f32 0x00000000#32) = _
  rw [Cert.Literals.four_eq, Cert.Literals.one_eq, Cert.Literals.zero_eq]

/-- The payload of the store to channel 0 at (0, plane, row, column): 1 less the vessel number. -/
theorem pay2_apply (v79 : FVec Ideal S8x256x256 .f32) (a : Fin 8) (b c : Fin 256) :
    k0_pay2 (F := Ideal) v79 (ix4 (0 : Fin 1) a b c) = 1 - v79 (ix3 a b c) := by
  unfold k0_pay2
  refine (addUnit_apply _ a b c).trans ?_
  show Ideal.ofBits .f32 0x3F800000#32 - v79 (ix3 a b c) = _
  rw [Cert.Literals.one_eq]

/-- The payload of the store to channel 1 at (0, plane, row, column): the class-0 channel at (plane, row, column). -/
theorem pay3_apply (v81 : IVec S8x256x256 1) (v82 v83 : FVec Ideal S8x256x256 .f32) (a : Fin 8) (b c : Fin 256) :
    k0_pay3 (F := Ideal) v81 v82 v83 (ix4 (0 : Fin 1) a b c) = k0_pay1 (F := Ideal) v81 v82 v83 (ix3 a b c) := by
  unfold k0_pay3
  exact addUnit_apply _ a b c

/-- The payload of the store to channel 2 at (0, plane, row, column): the vessel number less the class-0 channel. -/
theorem pay4_apply (v79 : FVec Ideal S8x256x256 .f32) (v81 : IVec S8x256x256 1) (v82 v83 : FVec Ideal S8x256x256 .f32)
    (a : Fin 8) (b c : Fin 256) :
    k0_pay4 (F := Ideal) v79 v81 v82 v83 (ix4 (0 : Fin 1) a b c)
      = v79 (ix3 a b c) - k0_pay1 (F := Ideal) v81 v82 v83 (ix3 a b c) := by
  unfold k0_pay4
  exact addUnit_apply _ a b c

/-- The one-hot block at (channel, plane, row, column): the kernel's channel value from the label and the packed entry
    at the label's slot. -/
theorem out4_apply (x0 : Vec Ideal S3x128 .f32) (x1 : Vec Ideal S8x256x256 .i32) (x2 : Vec Ideal S8x256x256 .f32)
    (ch : Fin 3) (a : Fin 8) (b c : Fin 256) :
    out0_4 (F := Ideal) x0 x1 x2 (ix4 ch a b c)
      = Cert.Spec.hotK ch (x1 (ix3 a b c)) (x0 (Cert.Spec.slotOf (x1 (ix3 a b c)))) := by
  unfold out0_4
  simp only [View.ld_unit_zero (S := S8x256x256) hz3, View.ld_unit_zero (S := S3x128) hz2]
  match ch with
  | 0 =>
    refine (canon_ch0 _ _ _ a b c).trans ((pay2_apply _ a b c).trans ?_)
    rw [vesselNum_apply]
    rfl
  | 1 =>
    refine (canon_ch1 _ _ _ a b c).trans ((pay3_apply _ _ _ a b c).trans ?_)
    refine (darkPay_apply _ _ _ _ _ _ _ _ _ _ _).trans ?_
    rw [Cert.PackedLookup.packed_apply x0 x1 a b c, vesselPay_apply]
    rfl
  | 2 =>
    refine (canon_ch2 _ _ _ a b c).trans ((pay4_apply _ _ _ _ a b c).trans ?_)
    rw [vesselNum_apply, darkPay_apply, Cert.PackedLookup.packed_apply x0 x1 a b c, vesselPay_apply]
    rfl

end Cert.KernelPoint

end
-- ==== Proof.KernelArrays.lean ====
/- From blocks to arrays. The region finds the labels, the base field and the packed table. Grid point t owns planes
   8t … 8t + 7 of the volume and of each one-hot channel; the 32 points' blocks tile both results, so each result array
   after the run is one function of the arrays the region found. -/
import proofs.«429853_j74156905333425_3_alg».proof.Proof.Gen.KernelIdeal.Value
import proofs.«429853_j74156905333425_3_alg».proof.Proof.Literals
import proofs.«429853_j74156905333425_3_alg».proof.Proof.Spec
import proofs.«429853_j74156905333425_3_alg».proof.Proof.KernelPoint
import Idealize.ShloMosaic.Lib.ValueIdx
import Idealize.ShloMosaic.Lib.ValueLayout
import Idealize.ShloMosaic.Lib.Pipeline.Value
import Idealize.ShloMosaic.Lib.StableHlo.Run

noncomputable section

namespace Cert.KernelArrays

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The labels as the region finds them. -/
abbrev labArr (c : Dev nD) : S256x256x256.Idx → BitVec 32 := V m c main_arg0
/-- The base field as the region finds it. -/
abbrev parArr (c : Dev nD) : S256x256x256.Idx → EReal := V m c main_arg3
/-- The packed table as the region finds it. -/
abbrev tblArr (c : Dev nD) : S3x128.Idx → EReal := V m c main_v5

/-! ## Which planes a grid point owns -/

/-- The printed index maps, decided over the 32 grid points: the table's block is the whole table at every point;
    the labels', the base field's and the volume's block at point `t` is plane-block `t` (rows and columns whole);
    the one-hot map's block at point `t` is all three channels of plane-block `t`. -/
theorem plane_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 4) = 0 ∧ win0_4.index t (1 : Fin 4) = t.val ∧ win0_4.index t (2 : Fin 4) = 0
    ∧ win0_4.index t (3 : Fin 4) = 0 :=
  (by decide +kernel : ∀ t : Fin grid0.N, _)

/-! ## The input blocks, read where the arrays hold them -/

/-- The table's block at any point is the whole table. -/
theorem tbl_block (c : Dev nD) (t : Fin cfg0.N) (s : S3x128.Idx) :
    (iblk m c 0 t : Vec Ideal S3x128 .f32) s = tblArr m c s := by
  obtain ⟨e0, e1, -⟩ := plane_facts t
  unfold iblk
  rw [View.read_apply]
  show V m c main_v5 _ = V m c main_v5 s
  congr 1
  funext a
  apply Fin.ext
  match a with
  | ⟨0, _⟩ => show win0_0.index t (0 : Fin 2) * 3 + 1 * (s 0).val = (s 0).val; omega
  | ⟨1, _⟩ => show win0_0.index t (1 : Fin 2) * 128 + 1 * (s 1).val = (s 1).val; omega

/-- The labels' block at point `t`: entry (a, y, x) is the label of voxel (8t + a, y, x). -/
theorem lab_block (c : Dev nD) (t : Fin cfg0.N) (j : S8x256x256.Idx) (i : S256x256x256.Idx)
    (h0 : (i 0).val = 8 * t.val + (j 0).val) (h1 : (i 1).val = (j 1).val) (h2 : (i 2).val = (j 2).val) :
    (iblk m c 1 t : Vec Ideal S8x256x256 .i32) j = labArr m c i := by
  obtain ⟨-, -, e0, e1, e2, -⟩ := plane_facts t
  unfold iblk
  rw [View.read_apply]
  show V m c main_arg0 _ = V m c main_arg0 i
  congr 1
  funext a
  apply Fin.ext
  match a with
  | ⟨0, _⟩ => show win0_1.index t (0 : Fin 3) * 8 + 1 * (j 0).val = (i 0).val; omega
  | ⟨1, _⟩ => show win0_1.index t (1 : Fin 3) * 256 + 1 * (j 1).val = (i 1).val; omega
  | ⟨2, _⟩ => show win0_1.index t (2 : Fin 3) * 256 + 1 * (j 2).val = (i 2).val; omega

/-- The base field's block at point `t`: entry (a, y, x) is the field at voxel (8t + a, y, x). -/
theorem par_block (c : Dev nD) (t : Fin cfg0.N) (j : S8x256x256.Idx) (i : S256x256x256.Idx)
    (h0 : (i 0).val = 8 * t.val + (j 0).val) (h1 : (i 1).val = (j 1).val) (h2 : (i 2).val = (j 2).val) :
    (iblk m c 2 t : Vec Ideal S8x256x256 .f32) j = parArr m c i := by
  obtain ⟨-, -, -, -, -, e0, e1, e2, -⟩ := plane_facts t
  unfold iblk
  rw [View.read_apply]
  show V m c main_arg3 _ = V m c main_arg3 i
  congr 1
  funext a
  apply Fin.ext
  match a with
  | ⟨0, _⟩ => show win0_2.index t (0 : Fin 3) * 8 + 1 * (j 0).val = (i 0).val; omega
  | ⟨1, _⟩ => show win0_2.index t (1 : Fin 3) * 256 + 1 * (j 1).val = (i 1).val; omega
  | ⟨2, _⟩ => show win0_2.index t (2 : Fin 3) * 256 + 1 * (j 2).val = (i 2).val; omega

/-! ## The volume -/

/-- The volume as one function of the arrays the region finds: voxel by voxel. -/
abbrev Gvol (c : Dev nD) : S256x256x256.Idx → EReal :=
  fun i => Cert.Spec.volK (labArr m c i) (tblArr m c (Cert.Spec.slotOf (labArr m c i))) (parArr m c i)

/-- The volume block the body leaves at point `t`, at entry `j`, is the volume's function at the voxel `i` that
    entry stands for: plane 8t + j₀, row j₁, column j₂. -/
theorem vol_read (c : Dev nD) (t : Fin cfg0.N) (j : S8x256x256.Idx) (i : S256x256x256.Idx)
    (h0 : (i 0).val = 8 * t.val + (j 0).val) (h1 : (i 1).val = (j 1).val) (h2 : (i 2).val = (j 2).val) :
    out0_3 (F := Ideal) (iblk m c 0 t) (iblk m c 1 t) (iblk m c 2 t) j = Gvol m c i := by
  have hL := lab_block m c t j i h0 h1 h2
  have hP := par_block m c t j i h0 h1 h2
  obtain ⟨a, b, d, rfl⟩ : ∃ a b d, j = ix3 a b d := ⟨j 0, j 1, j 2, eq_ix3 j⟩
  refine (Cert.KernelPoint.out3_apply _ _ _ a b d).trans ?_
  show Cert.Spec.volK (iblk m c 1 t (ix3 a b d)) (iblk m c 0 t (Cert.Spec.slotOf (iblk m c 1 t (ix3 a b d))))
      (iblk m c 2 t (ix3 a b d))
    = Cert.Spec.volK (labArr m c i) (tblArr m c (Cert.Spec.slotOf (labArr m c i))) (parArr m c i)
  rw [hL, hP, tbl_block m c t]

/-- WHAT POINT `t` WRITES BACK to the volume is block `t` of the volume's function. -/
theorem flushed_vol (c : Dev nD) (t : Fin cfg0.N) :
    (dats m 0 c).flushed 3 t = ((cfg0.win 3).blk t).view.read (Elt Ideal) (Gvol m c) := by
  rw [Cert.KernelIdeal.Value.flushed3]
  obtain ⟨-, -, -, -, -, -, -, -, e0, e1, e2, -⟩ := plane_facts t
  funext j
  show out0_3 (F := Ideal) (iblk m c 0 t) (iblk m c 1 t) (iblk m c 2 t) j
    = Gvol m c (((cfg0.win 3).blk t).view.emb j)
  refine vol_read m c t j _ ?_ ?_ ?_
  · show win0_3.index t (0 : Fin 3) * 8 + 1 * (j 0).val = 8 * t.val + (j 0).val; omega
  · show win0_3.index t (1 : Fin 3) * 256 + 1 * (j 1).val = (j 1).val; omega
  · show win0_3.index t (2 : Fin 3) * 256 + 1 * (j 2).val = (j 2).val; omega

/-- A voxel is in point `t`'s volume block iff each coordinate is in the block's range on its axis. -/
theorem mem_vol_blk (t : Fin cfg0.N) (i : S256x256x256.Idx) :
    i ∈ ((cfg0.win 3).blk t).view.set ↔ ∀ a : Fin 3, win0_3.index t a * S8x256x256.size a ≤ (i a).val
      ∧ (i a).val < win0_3.index t a * S8x256x256.size a + S8x256x256.size a := by
  show i ∈ ((View.whole main_v6_0).slice (win0_3.rect t)).set ↔ _
  rw [View.set_slice_whole, Rect.mem_set_unit]
  exact Iff.rfl

/-- Every voxel is in some point's volume block: plane z belongs to point z / 8. -/
theorem vol_cover (i : S256x256x256.Idx) :
    ∃ t : Fin cfg0.N, (cfg0.win 3).flush t = true ∧ i ∈ ((cfg0.win 3).blk t).view.set := by
  have hi0 : (i 0).val < 256 := (i 0).isLt
  have hi1 : (i 1).val < 256 := (i 1).isLt
  have hi2 : (i 2).val < 256 := (i 2).isLt
  obtain ⟨t, ht⟩ : ∃ t : Fin cfg0.N, t.val = (i 0).val / 8 :=
    ⟨⟨(i 0).val / 8, by show (i 0).val / 8 < grid0.N; rw [N_0]; omega⟩, rfl⟩
  obtain ⟨-, -, -, -, -, -, -, -, e0, e1, e2, -⟩ := plane_facts t
  refine ⟨t, flush0_3 t, ?_⟩
  rw [mem_vol_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The volume after the run: every voxel the kernel's function of its label, the table at the label's slot and the
    base field. -/
theorem final3 (c : Dev nD) :
    (dats m 0 c).arrAt 3 cfg0.N
      = fun i : S256x256x256.Idx =>
          Cert.Spec.volK (labArr m c i) (tblArr m c (Cert.Spec.slotOf (labArr m c i))) (parArr m c i) :=
  (dats m 0 c).arrAt_eq_of_cover 3 (Gvol m c) (fun t _ => flushed_vol m c t) vol_cover

/-! ## The one-hot map -/

/-- The one-hot map as one function of the arrays the region finds: channel by channel, voxel by voxel. -/
abbrev Ghot (c : Dev nD) : S3x256x256x256.Idx → EReal :=
  fun i => Cert.Spec.hotK (i 0) (labArr m c (Cert.Spec.voxelOf i))
    (tblArr m c (Cert.Spec.slotOf (labArr m c (Cert.Spec.voxelOf i))))

/-- The one-hot block the body leaves at point `t`, at entry `j`, is the map's function at the entry `i` it stands
    for: channel j₀ of voxel (8t + j₁, j₂, j₃). -/
theorem hot_read (c : Dev nD) (t : Fin cfg0.N) (j : S3x8x256x256.Idx) (i : S3x256x256x256.Idx)
    (hc : (i 0).val = (j 0).val) (h0 : (i 1).val = 8 * t.val + (j 1).val) (h1 : (i 2).val = (j 2).val)
    (h2 : (i 3).val = (j 3).val) :
    out0_4 (F := Ideal) (iblk m c 0 t) (iblk m c 1 t) (iblk m c 2 t) j = Ghot m c i := by
  have hL := lab_block m c t (ix3 (j 1) (j 2) (j 3)) (Cert.Spec.voxelOf i) h0 h1 h2
  have hch : i 0 = j 0 := Fin.ext hc
  obtain ⟨ch, a, b, d, rfl⟩ : ∃ ch a b d, j = ix4 ch a b d := ⟨j 0, j 1, j 2, j 3, eq_ix4 j⟩
  refine (Cert.KernelPoint.out4_apply _ _ _ ch a b d).trans ?_
  show Cert.Spec.hotK ch (iblk m c 1 t (ix3 a b d)) (iblk m c 0 t (Cert.Spec.slotOf (iblk m c 1 t (ix3 a b d))))
    = Cert.Spec.hotK (i 0) (labArr m c (Cert.Spec.voxelOf i))
        (tblArr m c (Cert.Spec.slotOf (labArr m c (Cert.Spec.voxelOf i))))
  rw [hch]
  rw [hL, tbl_block m c t]

/-- WHAT POINT `t` WRITES BACK to the one-hot map is block `t` of the map's function. -/
theorem flushed_hot (c : Dev nD) (t : Fin cfg0.N) :
    (dats m 0 c).flushed 4 t = ((cfg0.win 4).blk t).view.read (Elt Ideal) (Ghot m c) := by
  rw [Cert.KernelIdeal.Value.flushed4]
  obtain ⟨-, -, -, -, -, -, -, -, -, -, -, e0, e1, e2, e3⟩ := plane_facts t
  funext j
  show out0_4 (F := Ideal) (iblk m c 0 t) (iblk m c 1 t) (iblk m c 2 t) j
    = Ghot m c (((cfg0.win 4).blk t).view.emb j)
  refine hot_read m c t j _ ?_ ?_ ?_ ?_
  · show win0_4.index t (0 : Fin 4) * 3 + 1 * (j 0).val = (j 0).val; omega
  · show win0_4.index t (1 : Fin 4) * 8 + 1 * (j 1).val = 8 * t.val + (j 1).val; omega
  · show win0_4.index t (2 : Fin 4) * 256 + 1 * (j 2).val = (j 2).val; omega
  · show win0_4.index t (3 : Fin 4) * 256 + 1 * (j 3).val = (j 3).val; omega

/-- An entry is in point `t`'s one-hot block iff each coordinate is in the block's range on its axis. -/
theorem mem_hot_blk (t : Fin cfg0.N) (i : S3x256x256x256.Idx) :
    i ∈ ((cfg0.win 4).blk t).view.set ↔ ∀ a : Fin 4, win0_4.index t a * S3x8x256x256.size a ≤ (i a).val
      ∧ (i a).val < win0_4.index t a * S3x8x256x256.size a + S3x8x256x256.size a := by
  show i ∈ ((View.whole main_v6_1).slice (win0_4.rect t)).set ↔ _
  rw [View.set_slice_whole, Rect.mem_set_unit]
  exact Iff.rfl

/-- Every entry is in some point's one-hot block: plane z of every channel belongs to point z / 8. -/
theorem hot_cover (i : S3x256x256x256.Idx) :
    ∃ t : Fin cfg0.N, (cfg0.win 4).flush t = true ∧ i ∈ ((cfg0.win 4).blk t).view.set := by
  have hi0 : (i 0).val < 3 := (i 0).isLt
  have hi1 : (i 1).val < 256 := (i 1).isLt
  have hi2 : (i 2).val < 256 := (i 2).isLt
  have hi3 : (i 3).val < 256 := (i 3).isLt
  obtain ⟨t, ht⟩ : ∃ t : Fin cfg0.N, t.val = (i 1).val / 8 :=
    ⟨⟨(i 1).val / 8, by show (i 1).val / 8 < grid0.N; rw [N_0]; omega⟩, rfl⟩
  obtain ⟨-, -, -, -, -, -, -, -, -, -, -, e0, e1, e2, e3⟩ := plane_facts t
  refine ⟨t, flush0_4 t, ?_⟩
  rw [mem_hot_blk]
  intro a
  match a with
  | ⟨0, _⟩ => show win0_4.index t (0 : Fin 4) * 3 ≤ (i 0).val ∧ (i 0).val < win0_4.index t (0 : Fin 4) * 3 + 3; omega
  | ⟨1, _⟩ => show win0_4.index t (1 : Fin 4) * 8 ≤ (i 1).val ∧ (i 1).val < win0_4.index t (1 : Fin 4) * 8 + 8; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- The one-hot map after the run: every entry the kernel's channel value of its voxel's label and the table at
    that label's slot. -/
theorem final4 (c : Dev nD) :
    (dats m 0 c).arrAt 4 cfg0.N
      = fun i : S3x256x256x256.Idx =>
          Cert.Spec.hotK (i 0) (labArr m c (Cert.Spec.voxelOf i))
            (tblArr m c (Cert.Spec.slotOf (labArr m c (Cert.Spec.voxelOf i)))) :=
  (dats m 0 c).arrAt_eq_of_cover 4 (Ghot m c) (fun t _ => flushed_hot m c t) hot_cover

end Cert.KernelArrays

end
-- ==== Proof.PackedTable.lean ====
/- The packed table as the region finds it. Before the region the program turns the class bits into numbers, multiplies
   them by 4, adds the intensities, pads the 257 sums with 127 zeros and lays the 384 values out as 3 rows of 128. So
   the entry of id n sits at row n / 128, lane n % 128, and at the slot of a label it is that id's packed entry:
   its intensity plus four times its class bit. -/
import proofs.«429853_j74156905333425_3_alg».proof.Proof.Gen.KernelIdeal.Frame
import proofs.«429853_j74156905333425_3_alg».proof.Proof.Literals
import proofs.«429853_j74156905333425_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.PackedTable

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The value the host operations leave in the table, from the intensities `x` and the class bits `b`: the sums
    `x + 4 · b`, 257 of them, padded at the high end to 384 entries and laid out as 3 rows of 128. -/
def tblTerm (x : S257.Idx → EReal) (b : S257.Idx → BitVec 32) : S3x128.Idx → EReal :=
  shapeCast S3x128
    (pad S384 ![0] ![127] ![0]
      (addf (F := Ideal) (φ := .f32) x
        (mulf (F := Ideal) (φ := .f32)
          (broadcastInDim S257 ![] bcast_S_S257 (constant (F := Ideal) S_ .f32 0x40800000#32))
          (sitofp (F := Ideal) .f32 b)))
      (sitofp (F := Ideal) .f32 (constantI S_ 32 0#32)) pads_S257_S384_01270 h_S_)
    shapeCasts_S384_S3x128

/-- The table as the region finds it is that value of the two argument arrays. -/
theorem tbl_eq (c : Dev nD) : (V m c main_v5 : S3x128.Idx → EReal)
    = tblTerm (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

/-- Row `r`, lane `l` of the table is entry `128 r + l` of the padded sums; when that is an id `n < 257` the padding
    is not met and the entry is the sum itself: the intensity plus 4 times the class bit read as a number. -/
theorem tblTerm_at (x : S257.Idx → EReal) (b : S257.Idx → BitVec 32) (r : Fin 3) (l : Fin 128) (n : Fin 257)
    (h : r.val * 128 + l.val = n.val) :
    tblTerm x b (ix2 r l) = Cert.Spec.packedOf (x (ix1 n)) (b (ix1 n)) := by
  have hn : n.val < 384 := lt_trans n.isLt (by decide)
  unfold tblTerm
  refine (shapeCast_apply _ shapeCasts_S384_S3x128 (ix2 r l) (ix1 (⟨n.val, hn⟩ : Fin 384)) (by
    rw [Shape.rowMajor_val_two, Shape.rowMajor_val_one]
    show n.val = r.val * 128 + l.val
    omega)).trans ?_
  refine (pad_apply_of_inside ![0] ![127] ![0] _ _ pads_S257_S384_01270 h_S_ (ix1 (⟨n.val, hn⟩ : Fin 384)) (ix1 n)
    (fun a => match a with
      | ⟨0, _⟩ => by show n.val = 0 + n.val * (0 + 1); omega)).trans ?_
  show x (ix1 n) + Ideal.ofBits .f32 0x40800000#32 * (((b (ix1 n)).toInt : ℝ) : EReal) = _
  rw [Cert.Literals.four_eq]
  rfl

/-- The packed table as the region finds it. -/
abbrev tblArr (c : Dev nD) : S3x128.Idx → EReal := V m c main_v5

/-- The packed table at a label's slot is the packed entry of the id the label selects. -/
theorem table_at_slot (c : Dev nD) (L : BitVec 32) :
    tblArr m c (Cert.Spec.slotOf L)
      = Cert.Spec.packedOf ((m ((c : Thread nD τ).loc main_arg1) : S257.Idx → EReal) (Cert.Spec.idOf L))
          ((m ((c : Thread nD τ).loc main_arg2) : S257.Idx → BitVec 32) (Cert.Spec.idOf L)) := by
  have hle := Cert.Spec.idNat_le L
  show (V m c main_v5 : S3x128.Idx → EReal) (Cert.Spec.slotOf L) = _
  rw [tbl_eq]
  exact tblTerm_at _ _ ⟨Cert.Spec.idNat L / 128, by omega⟩ ⟨Cert.Spec.idNat L % 128, Nat.mod_lt _ (by decide)⟩
    ⟨Cert.Spec.idNat L, Nat.lt_succ_of_le hle⟩ (by
      show Cert.Spec.idNat L / 128 * 128 + Cert.Spec.idNat L % 128 = Cert.Spec.idNat L
      omega)

end Cert.PackedTable

end
-- ==== Proof.KernelValue.lean ====
/- The kernel's two results are the specification's, on the stated domain.
   After the run each result array is the kernel's per-voxel function of the label, the packed table at the label's
   slot and the base field; the table at that slot is the packed entry of the id the label selects; and where every
   class bit is 0 or 1 and every intensity lies in [0, 2], unpacking that entry gives back the intensity and the class. -/
import proofs.«429853_j74156905333425_3_alg».proof.Proof.KernelArrays
import proofs.«429853_j74156905333425_3_alg».proof.Proof.PackedTable
import proofs.«429853_j74156905333425_3_alg».proof.Proof.Spec

noncomputable section

namespace Cert.KernelValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The labels the program was launched with. -/
abbrev lab0 (c : Dev nD) : S256x256x256.Idx → BitVec 32 := m ((c : Thread nD τ).loc main_arg0)
/-- The per-id intensities it was launched with. -/
abbrev inten0 (c : Dev nD) : S257.Idx → EReal := m ((c : Thread nD τ).loc main_arg1)
/-- The per-id class bits it was launched with. -/
abbrev bits0 (c : Dev nD) : S257.Idx → BitVec 32 := m ((c : Thread nD τ).loc main_arg2)
/-- The base field it was launched with. -/
abbrev par0 (c : Dev nD) : S256x256x256.Idx → EReal := m ((c : Thread nD τ).loc main_arg3)

/-- The stated domain of the two per-id tables: every class bit is 0 or 1, every intensity lies in [0, 2]. -/
def Domain (c : Dev nD) : Prop :=
  ∀ k : S257.Idx, (bits0 m c k = 0#32 ∨ bits0 m c k = 1#32) ∧ (0 : EReal) ≤ inten0 m c k ∧ inten0 m c k ≤ ((2 : ℝ) : EReal)

/-- The region finds the labels as launched. -/
theorem labArr_eq (c : Dev nD) : Cert.KernelArrays.labArr m c = lab0 m c := V_main_arg0 m c
/-- The region finds the base field as launched. -/
theorem parArr_eq (c : Dev nD) : Cert.KernelArrays.parArr m c = par0 m c := V_main_arg3 m c

/-- The volume after the run is the specification's. -/
theorem kernel_vol (c : Dev nD) (hd : Domain m c) :
    (dats m 0 c).arrAt 3 cfg0.N = Cert.Spec.Gvol (lab0 m c) (inten0 m c) (par0 m c) := by
  rw [Cert.KernelArrays.final3]
  funext i
  show Cert.Spec.volK (Cert.KernelArrays.labArr m c i)
      (Cert.PackedTable.tblArr m c (Cert.Spec.slotOf (Cert.KernelArrays.labArr m c i))) (Cert.KernelArrays.parArr m c i) = _
  rw [Cert.PackedTable.table_at_slot, labArr_eq, parArr_eq]
  obtain ⟨hb, h0, h2⟩ := hd (Cert.Spec.idOf (lab0 m c i))
  exact Cert.Spec.volK_packed _ _ _ _ hb h0 h2

/-- The one-hot map after the run is the specification's. -/
theorem kernel_hot (c : Dev nD) (hd : Domain m c) :
    (dats m 0 c).arrAt 4 cfg0.N = Cert.Spec.Ghot (lab0 m c) (bits0 m c) := by
  rw [Cert.KernelArrays.final4]
  funext i
  show Cert.Spec.hotK (i 0) (Cert.KernelArrays.labArr m c (Cert.Spec.voxelOf i))
      (Cert.PackedTable.tblArr m c (Cert.Spec.slotOf (Cert.KernelArrays.labArr m c (Cert.Spec.voxelOf i)))) = _
  rw [Cert.PackedTable.table_at_slot, labArr_eq]
  obtain ⟨hb, h0, h2⟩ := hd (Cert.Spec.idOf (lab0 m c (Cert.Spec.voxelOf i)))
  exact Cert.Spec.hotK_packed _ _ _ _ hb h0 h2

end Cert.KernelValue

end
-- ==== Proof.Claims.lean ====
/- The five claims.
   The two kernel programs' frames are the generated frame proofs; the reference has no kernel, and its frame is its
   generated run with the results dropped. The idealization rewrote nothing, so `preserves` asks nothing.
   `algebraic`: from memories that agree on the four arguments, the idealized kernel ends with the volume and the
   one-hot map at the specification's two functions of the arguments (its value leg, on the domain the precondition
   states: class bits 0 or 1, intensities in [0, 2]), and the reference ends with them at the same two functions
   (its run, read index by index). -/
import proofs.«429853_j74156905333425_3_alg».proof.Defs
import proofs.«429853_j74156905333425_3_alg».proof.Proof.Gen.Kernel.Frame
import proofs.«429853_j74156905333425_3_alg».proof.Proof.Gen.KernelIdeal.Frame
import proofs.«429853_j74156905333425_3_alg».proof.Proof.Gen.KernelIdeal.Value
import proofs.«429853_j74156905333425_3_alg».proof.Proof.Gen.ReferenceIdeal.Run
import proofs.«429853_j74156905333425_3_alg».proof.Proof.Gen.ReferenceIdeal.Read
import proofs.«429853_j74156905333425_3_alg».proof.Proof.Gen.Pre_finite_inputs
import proofs.«429853_j74156905333425_3_alg».proof.Proof.PreRead
import proofs.«429853_j74156905333425_3_alg».proof.Proof.RefValue
import proofs.«429853_j74156905333425_3_alg».proof.Proof.KernelValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The precondition puts the launch memory's two per-id tables in the stated domain. -/
theorem domain_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelValue.Domain m c :=
  fun k => Cert.PreRead.domain_of_pre _ _ _ _ (hpre c) k

theorem algebraic : Cert.algebraic_KernelIdeal_ReferenceIdeal := by
  intro m ρ m' ρ' hpre hagree
  refine ⟨fun c => Cert.Spec.Gvol (Cert.KernelValue.lab0 m c) (Cert.KernelValue.inten0 m c) (Cert.KernelValue.par0 m c),
    fun c => Cert.Spec.Ghot (Cert.KernelValue.lab0 m c) (Cert.KernelValue.bits0 m c), ?_, ?_⟩
  · exact (θ_run Cert.KernelIdeal.defs _ _).mono
      (fun r h c => ⟨(h c).1.trans (Cert.KernelValue.kernel_vol m c (domain_of_pre m hpre c)),
        (h c).2.1.trans (Cert.KernelValue.kernel_hot m c (domain_of_pre m hpre c)), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v30_eq, Cert.RefValue.ref_vol, (hagree c).1, (hagree c).2.1,
        (hagree c).2.2.2]
    · rw [(h c).2.1, Cert.ReferenceIdeal.Read.val_main_v29_eq, Cert.RefValue.ref_hot, (hagree c).1, (hagree c).2.2.1]

end Cert.Proof.Claims

end
-- ==== Proof.lean ====
/- The certificate of a vessel-labelling kernel against its reference.

   Both programs take a 256³ volume of integer labels, a per-id intensity table and a per-id class bit (257 ids), and a
   256³ base field, and return the base field scaled by the looked-up intensity on the vessel voxels (positive labels),
   and a three-channel one-hot map: background, vessels of class 0, vessels of class 1. The reference looks the two
   tables up voxel by voxel. The kernel packs them into one table, intensity + 4 · class bit, looks that up through
   three 128-lane rows, and unpacks: class 1 is "the packed value is at least 4", and the intensity is the packed value
   with that 4 taken off. The unpacking is exact where every class bit is 0 or 1 and every intensity lies in [0, 2],
   which is what the precondition states.

   The modules: Spec (the two results as functions of the arguments, in the reference's form and in the kernel's, and
   the law between them), PreRead (the domain read off the precondition), RefValue (the reference computes the
   specification), Lanes and PackedLookup (the three-row lookup is the table at the label's slot), PackedTable (the
   table holds each id's packed entry at its slot), KernelPoint and KernelArrays (one grid point's blocks, then the
   whole arrays), KernelValue (the kernel computes the specification on the domain), Claims (the five claims). -/
import proofs.«429853_j74156905333425_3_alg».proof.Defs
import proofs.«429853_j74156905333425_3_alg».proof.Proof.Gen.Kernel
import proofs.«429853_j74156905333425_3_alg».proof.Proof.Gen.Kernel.Skeleton
import proofs.«429853_j74156905333425_3_alg».proof.Proof.Gen.Kernel.Launch
import proofs.«429853_j74156905333425_3_alg».proof.Proof.Gen.Kernel.Points
import proofs.«429853_j74156905333425_3_alg».proof.Proof.Gen.Kernel.Frame
import proofs.«429853_j74156905333425_3_alg».proof.Proof.Gen.KernelIdeal
import proofs.«429853_j74156905333425_3_alg».proof.Proof.Gen.KernelIdeal.Skeleton
import proofs.«429853_j74156905333425_3_alg».proof.Proof.Gen.KernelIdeal.Launch
import proofs.«429853_j74156905333425_3_alg».proof.Proof.Gen.KernelIdeal.Points
import proofs.«429853_j74156905333425_3_alg».proof.Proof.Gen.KernelIdeal.Frame
import proofs.«429853_j74156905333425_3_alg».proof.Proof.Gen.ReferenceIdeal
import proofs.«429853_j74156905333425_3_alg».proof.Proof.Gen.Pre_finite_inputs
import proofs.«429853_j74156905333425_3_alg».proof.Proof.Gen.KernelIdeal.Value
import proofs.«429853_j74156905333425_3_alg».proof.Proof.Gen.ReferenceIdeal.Run
import proofs.«429853_j74156905333425_3_alg».proof.Proof.Gen.ReferenceIdeal.Read
import proofs.«429853_j74156905333425_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
